-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S100000x256 : Shape := ⟨2, ![100000, 256]⟩
abbrev S2016x256 : Shape := ⟨2, ![2016, 256]⟩
abbrev S256x100 : Shape := ⟨2, ![256, 100]⟩
abbrev S256x5 : Shape := ⟨2, ![256, 5]⟩
abbrev S5x5 : Shape := ⟨2, ![5, 5]⟩
abbrev S125x1 : Shape := ⟨2, ![125, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S2016x256 : S_.BroadcastsInDim S2016x256 (![] : Fin 0 → Fin S2016x256.rank)
  reducesTo_S2016x256_S_d0_1 : S2016x256.ReducesTo [0, 1] S_
  bcast_S_S256x100 : S_.BroadcastsInDim S256x100 (![] : Fin 0 → Fin S256x100.rank)
  reducesTo_S256x100_S_d0_1 : S256x100.ReducesTo [0, 1] S_
  bcast_S_S256x5 : S_.BroadcastsInDim S256x5 (![] : Fin 0 → Fin S256x5.rank)
  reducesTo_S256x5_S_d0_1 : S256x5.ReducesTo [0, 1] S_
  bcast_S_S5x5 : S_.BroadcastsInDim S5x5 (![] : Fin 0 → Fin S5x5.rank)
  reducesTo_S5x5_S_d0_1 : S5x5.ReducesTo [0, 1] S_
  bcast_S_S125x1 : S_.BroadcastsInDim S125x1 (![] : Fin 0 → Fin S125x1.rank)
  reducesTo_S125x1_S_d0_1 : S125x1.ReducesTo [0, 1] S_
  bcast_S_S1 : S_.BroadcastsInDim S1 (![] : Fin 0 → Fin S1.rank)
  reducesTo_S1_S_d0 : S1.ReducesTo [0] S_
  bcast_S_S262144 : S_.BroadcastsInDim S262144 (![] : Fin 0 → Fin S262144.rank)
  reducesTo_S262144_S_d0 : S262144.ReducesTo [0] S_

variable [Facts]

def fn_part3 {F : FTy → Type} [FloatOps F] (main_v45 : IVec S_ 1) (main_v50 : IVec S262144 1) : IVec S_ 1 :=
  let main_c_19 : IVec S_ 1 := constantI S_ 1 1#1
  let main_v51 : IVec S_ 1 := (fun x v => Host.reduce IntOp.andi x v reducesTo_S262144_S_d0 h_S_) main_v50 main_c_19
  let main_v52 : IVec S_ 1 := andi main_v45 main_v51
  main_v52

def fn_part2 {F : FTy → Type} [FloatOps F] (main_arg0 : IVec S262144 32) (main_arg1 : IVec S262144 32) (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 0#32
  let main_v39 : IVec S262144 32 := broadcastInDim S262144 ![] bcast_S_S262144 main_c_14
  let main_v40 : IVec S262144 1 := cmpi .sge main_arg0 main_v39
  let main_c_15 : IVec S_ 32 := constantI S_ 32 100000#32
  let main_v41 : IVec S262144 32 := broadcastInDim S262144 ![] bcast_S_S262144 main_c_15
  let main_v42 : IVec S262144 1 := cmpi .slt main_arg0 main_v41
  let main_v43 : IVec S262144 1 := andi main_v40 main_v42
  let main_c_16 : IVec S_ 1 := constantI S_ 1 1#1
  let main_v44 : IVec S_ 1 := (fun x v => Host.reduce IntOp.andi x v reducesTo_S262144_S_d0 h_S_) main_v43 main_c_16
  let main_v45 : IVec S_ 1 := andi main_v38 main_v44
  let main_c_17 : IVec S_ 32 := constantI S_ 32 0#32
  let main_v46 : IVec S262144 32 := broadcastInDim S262144 ![] bcast_S_S262144 main_c_17
  let main_v47 : IVec S262144 1 := cmpi .sge main_arg1 main_v46
  let main_c_18 : IVec S_ 32 := constantI S_ 32 2016#32
  let main_v48 : IVec S262144 32 := broadcastInDim S262144 ![] bcast_S_S262144 main_c_18
  let main_v49 : IVec S262144 1 := cmpi .slt main_arg1 main_v48
  let main_v50 : IVec S262144 1 := andi main_v47 main_v49
  fn_part3 (F := F) main_v45 main_v50

def fn_part1 {F : FTy → Type} [FloatOps F] (main_arg0 : IVec S262144 32) (main_arg1 : IVec S262144 32) (main_arg6 : FVec F S256x5 .f32) (main_arg7 : FVec F S5x5 .f32) (main_arg8 : FVec F S125x1 .f32) (main_arg9 : FVec F S1 .f32) (main_v13 : IVec S_ 1) (main_v16 : IVec S256x5 1) : IVec S_ 1 :=
  let main_c_5 : IVec S_ 1 := constantI S_ 1 1#1
  let main_v17 : IVec S_ 1 := (fun x v => Host.reduce IntOp.andi x v reducesTo_S256x5_S_d0_1 h_S_) main_v16 main_c_5
  let main_v18 : IVec S_ 1 := andi main_v13 main_v17
  let main_v19 : FVec F S256x5 .f32 := Host.absf main_arg6
  let main_cst_6 : FVec F S_ .f32 := constant S_ .f32 0x7F800000#32
  let main_v20 : FVec F S256x5 .f32 := broadcastInDim S256x5 ![] bcast_S_S256x5 main_cst_6
  let main_v21 : IVec S256x5 1 := cmpf .olt main_v19 main_v20
  let main_c_7 : IVec S_ 1 := constantI S_ 1 1#1
  let main_v22 : IVec S_ 1 := (fun x v => Host.reduce IntOp.andi x v reducesTo_S256x5_S_d0_1 h_S_) main_v21 main_c_7
  let main_v23 : IVec S_ 1 := andi main_v18 main_v22
  let main_v24 : FVec F S5x5 .f32 := Host.absf main_arg7
  let main_cst_8 : FVec F S_ .f32 := constant S_ .f32 0x7F800000#32
  let main_v25 : FVec F S5x5 .f32 := broadcastInDim S5x5 ![] bcast_S_S5x5 main_cst_8
  let main_v26 : IVec S5x5 1 := cmpf .olt main_v24 main_v25
  let main_c_9 : IVec S_ 1 := constantI S_ 1 1#1
  let main_v27 : IVec S_ 1 := (fun x v => Host.reduce IntOp.andi x v reducesTo_S5x5_S_d0_1 h_S_) main_v26 main_c_9
  let main_v28 : IVec S_ 1 := andi main_v23 main_v27
  let main_v29 : FVec F S125x1 .f32 := Host.absf main_arg8
  let main_cst_10 : FVec F S_ .f32 := constant S_ .f32 0x7F800000#32
  let main_v30 : FVec F S125x1 .f32 := broadcastInDim S125x1 ![] bcast_S_S125x1 main_cst_10
  let main_v31 : IVec S125x1 1 := cmpf .olt main_v29 main_v30
  let main_c_11 : IVec S_ 1 := constantI S_ 1 1#1
  let main_v32 : IVec S_ 1 := (fun x v => Host.reduce IntOp.andi x v reducesTo_S125x1_S_d0_1 h_S_) main_v31 main_c_11
  let main_v33 : IVec S_ 1 := andi main_v28 main_v32
  fn_part2 (F := F) main_arg0 main_arg1 main_arg9 main_v33

def fn {F : FTy → Type} [FloatOps F] (main_arg0 : IVec S262144 32) (main_arg1 : IVec S262144 32) (main_arg2 : FVec F S100000x256 .f32) (main_arg3 : FVec F S2016x256 .f32) (main_arg4 : FVec F S256x100 .f32) (main_arg5 : FVec F S256x5 .f32) (main_arg6 : FVec F S256x5 .f32) (main_arg7 : FVec F S5x5 .f32) (main_arg8 : FVec F S125x1 .f32) (main_arg9 : FVec F S1 .f32) : IVec S_ 1 :=
  let main_v0 : FVec F S100000x256 .f32 := Host.absf main_arg2
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S2016x256 .f32 := Host.absf main_arg3
  let main_cst_0 : FVec F S_ .f32 := constant S_ .f32 0x7F800000#32
  let main_v5 : FVec F S2016x256 .f32 := broadcastInDim S2016x256 ![] bcast_S_S2016x256 main_cst_0
  let main_v6 : IVec S2016x256 1 := cmpf .olt main_v4 main_v5
  let main_c_1 : IVec S_ 1 := constantI S_ 1 1#1
  let main_v7 : IVec S_ 1 := (fun x v => Host.reduce IntOp.andi x v reducesTo_S2016x256_S_d0_1 h_S_) main_v6 main_c_1
  let main_v8 : IVec S_ 1 := andi main_v3 main_v7
  let main_v9 : FVec F S256x100 .f32 := Host.absf main_arg4
  let main_cst_2 : FVec F S_ .f32 := constant S_ .f32 0x7F800000#32
  let main_v10 : FVec F S256x100 .f32 := broadcastInDim S256x100 ![] bcast_S_S256x100 main_cst_2
  let main_v11 : IVec S256x100 1 := cmpf .olt main_v9 main_v10
  let main_c_3 : IVec S_ 1 := constantI S_ 1 1#1
  let main_v12 : IVec S_ 1 := (fun x v => Host.reduce IntOp.andi x v reducesTo_S256x100_S_d0_1 h_S_) main_v11 main_c_3
  let main_v13 : IVec S_ 1 := andi main_v8 main_v12
  let main_v14 : FVec F S256x5 .f32 := Host.absf main_arg5
  let main_cst_4 : FVec F S_ .f32 := constant S_ .f32 0x7F800000#32
  let main_v15 : FVec F S256x5 .f32 := broadcastInDim S256x5 ![] bcast_S_S256x5 main_cst_4
  let main_v16 : IVec S256x5 1 := cmpf .olt main_v14 main_v15
  fn_part1 (F := F) main_arg0 main_arg1 main_arg6 main_arg7 main_arg8 main_arg9 main_v13 main_v16
-- ==== Kernel.lean ====
abbrev S262144 : Shape := ⟨1, ![262144]⟩
abbrev S100000x256 : Shape := ⟨2, ![100000, 256]⟩
abbrev S2016x256 : Shape := ⟨2, ![2016, 256]⟩
abbrev S256x100 : Shape := ⟨2, ![256, 100]⟩
abbrev S256x5 : Shape := ⟨2, ![256, 5]⟩
abbrev S5x5 : Shape := ⟨2, ![5, 5]⟩
abbrev S125x1 : Shape := ⟨2, ![125, 1]⟩
abbrev S1 : Shape := ⟨1, ![1]⟩
abbrev S_ : Shape := ⟨0, ![]⟩
abbrev S262144x1 : Shape := ⟨2, ![262144, 1]⟩
abbrev S1x1 : Shape := ⟨2, ![1, 1]⟩
abbrev S262144x256 : Shape := ⟨2, ![262144, 256]⟩
abbrev S4096x256 : Shape := ⟨2, ![4096, 256]⟩
abbrev S4096 : Shape := ⟨1, ![4096]⟩
abbrev S4096x100 : Shape := ⟨2, ![4096, 100]⟩
abbrev S4096x5 : Shape := ⟨2, ![4096, 5]⟩
abbrev S125 : Shape := ⟨1, ![125]⟩
abbrev S100 : Shape := ⟨1, ![100]⟩
abbrev S25 : Shape := ⟨1, ![25]⟩
abbrev S1x100 : Shape := ⟨2, ![1, 100]⟩
abbrev S4096x1 : Shape := ⟨2, ![4096, 1]⟩
abbrev S1x5 : Shape := ⟨2, ![1, 5]⟩
abbrev S5 : Shape := ⟨1, ![5]⟩

abbrev nBuf : Space → Nat
  | .hbm => 62
  | .vmem => 12
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S100000x256, .f32⟩
  | .hbm, ⟨3, _⟩ => ⟨S2016x256, .f32⟩
  | .hbm, ⟨4, _⟩ => ⟨S256x100, .f32⟩
  | .hbm, ⟨5, _⟩ => ⟨S256x5, .f32⟩
  | .hbm, ⟨6, _⟩ => ⟨S256x5, .f32⟩
  | .hbm, ⟨7, _⟩ => ⟨S5x5, .f32⟩
  | .hbm, ⟨8, _⟩ => ⟨S125x1, .f32⟩
  | .hbm, ⟨9, _⟩ => ⟨S1, .f32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S262144x1, .i32⟩
  | .hbm, ⟨18, _⟩ => ⟨S1, .i32⟩
  | .hbm, ⟨19, _⟩ => ⟨S_, .i32⟩
  | .hbm, ⟨20, _⟩ => ⟨S262144x1, .i32⟩
  | .hbm, ⟨21, _⟩ => ⟨S262144x1, .i1⟩
  | .hbm, ⟨22, _⟩ => ⟨S1x1, .i32⟩
  | .hbm, ⟨23, _⟩ => ⟨S262144x1, .i32⟩
  | .hbm, ⟨24, _⟩ => ⟨S262144x1, .i1⟩
  | .hbm, ⟨25, _⟩ => ⟨S262144x1, .i1⟩
  | .hbm, ⟨26, _⟩ => ⟨S_, .i1⟩
  | .hbm, ⟨27, _⟩ => ⟨S262144, .i1⟩
  | .hbm, ⟨28, _⟩ => ⟨S262144x256, .f32⟩
  | .hbm, ⟨29, _⟩ => ⟨S262144x256, .i1⟩
  | .hbm, ⟨30, _⟩ => ⟨S_, .f32⟩
  | .hbm, ⟨31, _⟩ => ⟨S262144x256, .f32⟩
  | .hbm, ⟨32, _⟩ => ⟨S262144x256, .f32⟩
  | .hbm, ⟨33, _⟩ => ⟨S262144x256, .bf16⟩
  | .hbm, ⟨34, _⟩ => ⟨S_, .i32⟩
  | .hbm, ⟨35, _⟩ => ⟨S262144, .i32⟩
  | .hbm, ⟨36, _⟩ => ⟨S262144, .i1⟩
  | .hbm, ⟨37, _⟩ => ⟨S_, .i32⟩
  | .hbm, ⟨38, _⟩ => ⟨S262144, .i32⟩
  | .hbm, ⟨39, _⟩ => ⟨S262144, .i32⟩
  | .hbm, ⟨40, _⟩ => ⟨S262144, .i32⟩
  | .hbm, ⟨41, _⟩ => ⟨S262144x1, .i32⟩
  | .hbm, ⟨42, _⟩ => ⟨S1, .i32⟩
  | .hbm, ⟨43, _⟩ => ⟨S_, .i32⟩
  | .hbm, ⟨44, _⟩ => ⟨S262144x1, .i32⟩
  | .hbm, ⟨45, _⟩ => ⟨S262144x1, .i1⟩
  | .hbm, ⟨46, _⟩ => ⟨S1x1, .i32⟩
  | .hbm, ⟨47, _⟩ => ⟨S262144x1, .i32⟩
  | .hbm, ⟨48, _⟩ => ⟨S262144x1, .i1⟩
  | .hbm, ⟨49, _⟩ => ⟨S262144x1, .i1⟩
  | .hbm, ⟨50, _⟩ => ⟨S_, .i1⟩
  | .hbm, ⟨51, _⟩ => ⟨S262144, .i1⟩
  | .hbm, ⟨52, _⟩ => ⟨S262144x256, .f32⟩
  | .hbm, ⟨53, _⟩ => ⟨S262144x256, .i1⟩
  | .hbm, ⟨54, _⟩ => ⟨S_, .f32⟩
  | .hbm, ⟨55, _⟩ => ⟨S262144x256, .f32⟩
  | .hbm, ⟨56, _⟩ => ⟨S262144x256, .f32⟩
  | .hbm, ⟨57, _⟩ => ⟨S262144x256, .bf16⟩
  | .hbm, ⟨58, _⟩ => ⟨S256x100, .bf16⟩
  | .hbm, ⟨59, _⟩ => ⟨S256x5, .bf16⟩
  | .hbm, ⟨60, _⟩ => ⟨S256x5, .bf16⟩
  | .hbm, ⟨61, _⟩ => ⟨S262144, .f32⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S256x100, .bf16⟩
  | .local _ .vmem, ⟨5, _⟩ => ⟨S256x5, .bf16⟩
  | .local _ .vmem, ⟨6, _⟩ => ⟨S256x5, .bf16⟩
  | .local _ .vmem, ⟨7, _⟩ => ⟨S5x5, .f32⟩
  | .local _ .vmem, ⟨8, _⟩ => ⟨S125x1, .f32⟩
  | .local _ .vmem, ⟨9, _⟩ => ⟨S1, .f32⟩
  | .local _ .vmem, ⟨10, _⟩ => ⟨S4096, .f32⟩
  | .local _ .vmem, ⟨11, _⟩ => ⟨S4096, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_v1 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x100 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x5 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x5 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S125x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  h_S_ : 0 < S_.numel
  bcast_S262144_S262144x256_0 : S262144.BroadcastsInDim S262144x256 (![0] : Fin 1 → Fin S262144x256.rank)
  bcast_S_S262144x256 : S_.BroadcastsInDim S262144x256 (![] : Fin 0 → Fin S262144x256.rank)
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x100_S256x100_0_0 : ∀ a, (![0, 0] : Fin 2 → Nat) a + S256x100.size a ≤ S256x100.size a
  h_S256x100 : 0 < S256x100.numel
  shapeCasts_S256x100_S256x100 : S256x100.ShapeCasts S256x100
  inb_S256x5_S256x5_0_0 : ∀ a, (![0, 0] : Fin 2 → Nat) a + S256x5.size a ≤ S256x5.size a
  h_S256x5 : 0 < S256x5.numel
  shapeCasts_S256x5_S256x5 : S256x5.ShapeCasts S256x5
  inb_S5x5_S5x5_0_0 : ∀ a, (![0, 0] : Fin 2 → Nat) a + S5x5.size a ≤ S5x5.size a
  h_S5x5 : 0 < S5x5.numel
  inb_S125x1_S125x1_0_0 : ∀ a, (![0, 0] : Fin 2 → Nat) a + S125x1.size a ≤ S125x1.size a
  h_S125x1 : 0 < S125x1.numel
  shapeCasts_S125x1_S125 : S125x1.ShapeCasts S125
  slices_S125_o0_S100 : S125.Slices ![0] S100
  slices_S125_o100_S25 : S125.Slices ![100] S25
  inb_S1_S1_0 : ∀ a, (![0] : Fin 1 → Nat) a + S1.size a ≤ S1.size a
  h_S1 : 0 < S1.numel
  inpos_S1_p0 : ∀ a, (![0] : Fin 1 → Nat) a < S1.size a
  shapeCasts_S100_S1x100 : S100.ShapeCasts S1x100
  broadcasts_S1x100_S4096x100 : S1x100.Broadcasts S4096x100
  reduces_S4096x100_S4096 : S4096x100.Reduces [1] S4096
  slices_S4096x5_o0_0_S4096x1 : S4096x5.Slices ![0, 0] S4096x1
  slices_S5x5_o0_0_S1x5 : S5x5.Slices ![0, 0] S1x5
  shapeCasts_S1x5_S5 : S1x5.ShapeCasts S5
  shapeCasts_S5_S1x5 : S5.ShapeCasts S1x5
  broadcasts_S4096x1_S4096x5 : S4096x1.Broadcasts S4096x5
  broadcasts_S1x5_S4096x5 : S1x5.Broadcasts S4096x5
  slices_S25_o0_S5 : S25.Slices ![0] S5
  reduces_S4096x5_S4096 : S4096x5.Reduces [1] S4096
  slices_S4096x5_o0_1_S4096x1 : S4096x5.Slices ![0, 1] S4096x1
  slices_S5x5_o1_0_S1x5 : S5x5.Slices ![1, 0] S1x5
  slices_S25_o5_S5 : S25.Slices ![5] S5
  slices_S4096x5_o0_2_S4096x1 : S4096x5.Slices ![0, 2] S4096x1
  slices_S5x5_o2_0_S1x5 : S5x5.Slices ![2, 0] S1x5
  slices_S25_o10_S5 : S25.Slices ![10] S5
  slices_S4096x5_o0_3_S4096x1 : S4096x5.Slices ![0, 3] S4096x1
  slices_S5x5_o3_0_S1x5 : S5x5.Slices ![3, 0] S1x5
  slices_S25_o15_S5 : S25.Slices ![15] S5
  slices_S4096x5_o0_4_S4096x1 : S4096x5.Slices ![0, 4] S4096x1
  slices_S5x5_o4_0_S1x5 : S5x5.Slices ![4, 0] S1x5
  slices_S25_o20_S5 : S25.Slices ![20] S5
  inb_S4096_S4096_0 : ∀ a, (![0] : Fin 1 → Nat) a + S4096.size a ≤ S4096.size a
  h_S4096 : 0 < S4096.numel
  gather_S100000x256_S262144x1_S262144x256_1_0_n_n_0_1_1256_wf : GatherDims.WF S100000x256 S262144x1 S262144x256 [1] [0] [] [0] [] 1 ![1, 256]
  gather_S2016x256_S262144x1_S262144x256_1_0_n_n_0_1_1256_wf : GatherDims.WF S2016x256 S262144x1 S262144x256 [1] [0] [] [0] [] 1 ![1, 256]
  dot_S4096x256_S256x100_S4096x100_1_0_0_1_n_n_wf : DotDims.WF S4096x256 S256x100 S4096x100 [1] [0] [0] [1] [] []
  dot_S4096x256_S256x5_S4096x5_1_0_0_1_n_n_wf : DotDims.WF S4096x256 S256x5 S4096x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .bf16 = 32 ∨ (Rect.block (s := S262144x256) S4096x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S262144x256.size a
  hwx0_1 : ∀ i : grid0.Coords, EltTy.bits .bf16 = 32 ∨ (Rect.block (s := S262144x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x100.size a ≤ S256x100.size a
  hwx0_2 : ∀ i : grid0.Coords, EltTy.bits .bf16 = 32 ∨ (Rect.block (s := S256x100) S256x100.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x5.size a ≤ S256x5.size a
  hwx0_3 : ∀ i : grid0.Coords, EltTy.bits .bf16 = 32 ∨ (Rect.block (s := S256x5) S256x5.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x5.size a ≤ S256x5.size a
  hwx0_4 : ∀ i : grid0.Coords, EltTy.bits .bf16 = 32 ∨ (Rect.block (s := S256x5) S256x5.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x5.size a ≤ S5x5.size a
  hwx0_5 : ∀ i : grid0.Coords, EltTy.bits .f32 = 32 ∨ (Rect.block (s := S5x5) S5x5.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S125x1.size a ≤ S125x1.size a
  hwx0_6 : ∀ i : grid0.Coords, EltTy.bits .f32 = 32 ∨ (Rect.block (s := S125x1) S125x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096.size a ≤ S262144.size a
  hwx0_8 : ∀ i : grid0.Coords, EltTy.bits .f32 = 32 ∨ (Rect.block (s := S262144) S4096.size (cc0_transform_8 i) (hinb0_8 i)).WholeWords (EltTy.packing .f32)

variable [Facts₀]

def gather_S100000x256_S262144x1_S262144x256_1_0_n_n_0_1_1256 : GatherDims S100000x256 S262144x1 S262144x256 where
  offsetDims := [1]
  collapsedSliceDims := [0]
  operandBatchingDims := []
  startIndicesBatchingDims := []
  startIndexMap := [0]
  indexVectorDim := 1
  sliceSizes := ![1, 256]
  wf := gather_S100000x256_S262144x1_S262144x256_1_0_n_n_0_1_1256_wf
def gather_S2016x256_S262144x1_S262144x256_1_0_n_n_0_1_1256 : GatherDims S2016x256 S262144x1 S262144x256 where
  offsetDims := [1]
  collapsedSliceDims := [0]
  operandBatchingDims := []
  startIndicesBatchingDims := []
  startIndexMap := [0]
  indexVectorDim := 1
  sliceSizes := ![1, 256]
  wf := gather_S2016x256_S262144x1_S262144x256_1_0_n_n_0_1_1256_wf
def dot_S4096x256_S256x100_S4096x100_1_0_0_1_n_n : DotDims S4096x256 S256x100 S4096x100 where
  lhsContracting := [1]
  rhsContracting := [0]
  lhsNonContracting := [0]
  rhsNonContracting := [1]
  lhsBatch := []
  rhsBatch := []
  wf := dot_S4096x256_S256x100_S4096x100_1_0_0_1_n_n_wf
def dot_S4096x256_S256x5_S4096x5_1_0_0_1_n_n : DotDims S4096x256 S256x5 S4096x5 where
  lhsContracting := [1]
  rhsContracting := [0]
  lhsNonContracting := [0]
  rhsNonContracting := [1]
  lhsBatch := []
  rhsBatch := []
  wf := dot_S4096x256_S256x5_S4096x5_1_0_0_1_n_n_wf

abbrev win0_0 : Pipeline.Window sig grid0 :=
  Pipeline.Window.ofSpec (Memref.whole main_v1) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x5.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S5x5.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S125x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S4096.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144 : Shape := ⟨1, ![262144]⟩
abbrev S100000x256 : Shape := ⟨2, ![100000, 256]⟩
abbrev S2016x256 : Shape := ⟨2, ![2016, 256]⟩
abbrev S256x100 : Shape := ⟨2, ![256, 100]⟩
abbrev S256x5 : Shape := ⟨2, ![256, 5]⟩
abbrev S5x5 : Shape := ⟨2, ![5, 5]⟩
abbrev S125x1 : Shape := ⟨2, ![125, 1]⟩
abbrev S1 : Shape := ⟨1, ![1]⟩
abbrev S_ : Shape := ⟨0, ![]⟩
abbrev S262144x1 : Shape := ⟨2, ![262144, 1]⟩
abbrev S262144x256 : Shape := ⟨2, ![262144, 256]⟩
abbrev S262144x100 : Shape := ⟨2, ![262144, 100]⟩
abbrev S262144x5 : Shape := ⟨2, ![262144, 5]⟩
abbrev S262144x5x1 : Shape := ⟨3, ![262144, 5, 1]⟩
abbrev S262144x1x5 : Shape := ⟨3, ![262144, 1, 5]⟩
abbrev S262144x5x5 : Shape := ⟨3, ![262144, 5, 5]⟩
abbrev S1x5x5 : Shape := ⟨3, ![1, 5, 5]⟩
abbrev S262144x25 : Shape := ⟨2, ![262144, 25]⟩
abbrev S262144x125 : Shape := ⟨2, ![262144, 125]⟩
abbrev S1x1 : Shape := ⟨2, ![1, 1]⟩

abbrev nBuf : Space → Nat
  | .hbm => 58
  | .vmem => 0
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S100000x256, .f32⟩
  | .hbm, ⟨3, _⟩ => ⟨S2016x256, .f32⟩
  | .hbm, ⟨4, _⟩ => ⟨S256x100, .f32⟩
  | .hbm, ⟨5, _⟩ => ⟨S256x5, .f32⟩
  | .hbm, ⟨6, _⟩ => ⟨S256x5, .f32⟩
  | .hbm, ⟨7, _⟩ => ⟨S5x5, .f32⟩
  | .hbm, ⟨8, _⟩ => ⟨S125x1, .f32⟩
  | .hbm, ⟨9, _⟩ => ⟨S1, .f32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S262144x1, .i32⟩
  | .hbm, ⟨18, _⟩ => ⟨S262144x256, .f32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S262144x256, .f32⟩
  | .hbm, ⟨28, _⟩ => ⟨S262144x256, .f32⟩
  | .hbm, ⟨29, _⟩ => ⟨S262144x100, .f32⟩
  | .hbm, ⟨30, _⟩ => ⟨S_, .f32⟩
  | .hbm, ⟨31, _⟩ => ⟨S262144x100, .f32⟩
  | .hbm, ⟨32, _⟩ => ⟨S262144x100, .f32⟩
  | .hbm, ⟨33, _⟩ => ⟨S262144x5, .f32⟩
  | .hbm, ⟨34, _⟩ => ⟨S262144x5, .f32⟩
  | .hbm, ⟨35, _⟩ => ⟨S262144x5x1, .f32⟩
  | .hbm, ⟨36, _⟩ => ⟨S262144x1x5, .f32⟩
  | .hbm, ⟨37, _⟩ => ⟨S262144x5x5, .f32⟩
  | .hbm, ⟨38, _⟩ => ⟨S262144x5x5, .f32⟩
  | .hbm, ⟨39, _⟩ => ⟨S262144x5x5, .f32⟩
  | .hbm, ⟨40, _⟩ => ⟨S1x5x5, .f32⟩
  | .hbm, ⟨41, _⟩ => ⟨S262144x5x5, .f32⟩
  | .hbm, ⟨42, _⟩ => ⟨S262144x5x5, .f32⟩
  | .hbm, ⟨43, _⟩ => ⟨S262144x5x5, .f32⟩
  | .hbm, ⟨44, _⟩ => ⟨S262144x5x5, .f32⟩
  | .hbm, ⟨45, _⟩ => ⟨S_, .f32⟩
  | .hbm, ⟨46, _⟩ => ⟨S262144x5x5, .f32⟩
  | .hbm, ⟨47, _⟩ => ⟨S262144x5x5, .f32⟩
  | .hbm, ⟨48, _⟩ => ⟨S_, .f32⟩
  | .hbm, ⟨49, _⟩ => ⟨S262144x5x5, .f32⟩
  | .hbm, ⟨50, _⟩ => ⟨S262144x5x5, .f32⟩
  | .hbm, ⟨51, _⟩ => ⟨S262144x25, .f32⟩
  | .hbm, ⟨52, _⟩ => ⟨S262144x125, .f32⟩
  | .hbm, ⟨53, _⟩ => ⟨S262144x1, .f32⟩
  | .hbm, ⟨54, _⟩ => ⟨S1x1, .f32⟩
  | .hbm, ⟨55, _⟩ => ⟨S262144x1, .f32⟩
  | .hbm, ⟨56, _⟩ => ⟨S262144x1, .f32⟩
  | .hbm, ⟨57, _⟩ => ⟨S262144, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S262144x100 : S_.BroadcastsInDim S262144x100 (![] : Fin 0 → Fin S262144x100.rank)
  bcast_S262144x5_S262144x5x1_0_1 : S262144x5.BroadcastsInDim S262144x5x1 (![0, 1] : Fin 2 → Fin S262144x5x1.rank)
  bcast_S262144x5_S262144x1x5_0_2 : S262144x5.BroadcastsInDim S262144x1x5 (![0, 2] : Fin 2 → Fin S262144x1x5.rank)
  bcast_S262144x5x1_S262144x5x5_0_1_2 : S262144x5x1.BroadcastsInDim S262144x5x5 (![0, 1, 2] : Fin 3 → Fin S262144x5x5.rank)
  bcast_S262144x1x5_S262144x5x5_0_1_2 : S262144x1x5.BroadcastsInDim S262144x5x5 (![0, 1, 2] : Fin 3 → Fin S262144x5x5.rank)
  bcast_S5x5_S1x5x5_1_2 : S5x5.BroadcastsInDim S1x5x5 (![1, 2] : Fin 2 → Fin S1x5x5.rank)
  bcast_S1x5x5_S262144x5x5_0_1_2 : S1x5x5.BroadcastsInDim S262144x5x5 (![0, 1, 2] : Fin 3 → Fin S262144x5x5.rank)
  bcast_S_S262144x5x5 : S_.BroadcastsInDim S262144x5x5 (![] : Fin 0 → Fin S262144x5x5.rank)
  shapeCasts_S262144x5x5_S262144x25 : S262144x5x5.ShapeCasts S262144x25
  concatenates_S262144x100_S262144x25_S262144x125_d1 : Shape.Concatenates [S262144x100, S262144x25] S262144x125 1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S262144 : S262144x1.ShapeCasts S262144
  gather_S100000x256_S262144x1_S262144x256_1_0_n_n_0_1_1256_wf : GatherDims.WF S100000x256 S262144x1 S262144x256 [1] [0] [] [0] [] 1 ![1, 256]
  gather_S2016x256_S262144x1_S262144x256_1_0_n_n_0_1_1256_wf : GatherDims.WF S2016x256 S262144x1 S262144x256 [1] [0] [] [0] [] 1 ![1, 256]
  dot_S262144x256_S256x100_S262144x100_1_0_0_1_n_n_wf : DotDims.WF S262144x256 S256x100 S262144x100 [1] [0] [0] [1] [] []
  dot_S262144x256_S256x5_S262144x5_1_0_0_1_n_n_wf : DotDims.WF S262144x256 S256x5 S262144x5 [1] [0] [0] [1] [] []
  dot_S262144x125_S125x1_S262144x1_1_0_0_1_n_n_wf : DotDims.WF S262144x125 S125x1 S262144x1 [1] [0] [0] [1] [] []

variable [Facts₀]

def gather_S100000x256_S262144x1_S262144x256_1_0_n_n_0_1_1256 : GatherDims S100000x256 S262144x1 S262144x256 where
  offsetDims := [1]
  collapsedSliceDims := [0]
  operandBatchingDims := []
  startIndicesBatchingDims := []
  startIndexMap := [0]
  indexVectorDim := 1
  sliceSizes := ![1, 256]
  wf := gather_S100000x256_S262144x1_S262144x256_1_0_n_n_0_1_1256_wf
def gather_S2016x256_S262144x1_S262144x256_1_0_n_n_0_1_1256 : GatherDims S2016x256 S262144x1 S262144x256 where
  offsetDims := [1]
  collapsedSliceDims := [0]
  operandBatchingDims := []
  startIndicesBatchingDims := []
  startIndexMap := [0]
  indexVectorDim := 1
  sliceSizes := ![1, 256]
  wf := gather_S2016x256_S262144x1_S262144x256_1_0_n_n_0_1_1256_wf
def dot_S262144x256_S256x100_S262144x100_1_0_0_1_n_n : DotDims S262144x256 S256x100 S262144x100 where
  lhsContracting := [1]
  rhsContracting := [0]
  lhsNonContracting := [0]
  rhsNonContracting := [1]
  lhsBatch := []
  rhsBatch := []
  wf := dot_S262144x256_S256x100_S262144x100_1_0_0_1_n_n_wf
def dot_S262144x256_S256x5_S262144x5_1_0_0_1_n_n : DotDims S262144x256 S256x5 S262144x5 where
  lhsContracting := [1]
  rhsContracting := [0]
  lhsNonContracting := [0]
  rhsNonContracting := [1]
  lhsBatch := []
  rhsBatch := []
  wf := dot_S262144x256_S256x5_S262144x5_1_0_0_1_n_n_wf
def dot_S262144x125_S125x1_S262144x1_1_0_0_1_n_n : DotDims S262144x125 S125x1 S262144x1 where
  lhsContracting := [1]
  rhsContracting := [0]
  lhsNonContracting := [0]
  rhsNonContracting := [1]
  lhsBatch := []
  rhsBatch := []
  wf := dot_S262144x125_S125x1_S262144x1_1_0_0_1_n_n_wf

class Facts : Prop extends Facts₀ where

variable [Facts]
-- ==== Proof.Readout.lean ====
/-
  The read-out of one batch row, as one function of the row's two embeddings and the weights.

  For a row n with route embedding r = R(n, ·) and time embedding t = T(n, ·), both of 256 entries:
    hidden k   = max(Σ_d (r_d · t_d) · W(d, k), 0)                       k < 100
    gate i j   = σ((Σ_d r_d · A(d, i)) · (Σ_d t_d · Bm(d, j)) + bias(i, j))  i, j < 5,   σ x = 1 / (1 + e^(−x))
    readout    = (Σ_k hidden k · fcw(k) + Σ_i Σ_j gate i j · fcw(100 + 5 i + j)) + fcb.
  The 125 weights of the last layer are the 100 hidden units' followed by the 25 gates' in row-major order.

  Two arrangements of that sum are met. One adds the bias to the hidden part first and then the five rows of gates one after
  the other; the other lays the 125 features side by side and takes one sum over them. Addition of extended reals is
  commutative and associative, so both are the read-out; no finiteness is used.
-/
import Idealize.ShloMosaic.PureOps.Ideal
import Idealize.ShloMosaic.Lib.ValueIdx
import Mathlib.Algebra.BigOperators.Fin
import Mathlib.Logic.Equiv.Fin.Basic

noncomputable section

namespace Cert.RouteReadout

open Idealize.ShloMosaic Idealize.ShloMosaic.ValueIdx

/-- An a × b array of extended reals. -/
abbrev Mat (a b : ℕ) := (⟨2, ![a, b]⟩ : Shape).Idx → EReal

variable {B : ℕ}

/-- Hidden unit k of row n: the rectified product of the row's elementwise product r ⊙ t with column k of W. -/
def hidden (R T : Mat B 256) (W : Mat 256 100) (n : Fin B) (k : Fin 100) : EReal :=
  max (∑ d : Fin 256, (R (ix2 n d) * T (ix2 n d)) * W (ix2 d k)) 0

/-- Entry i of the projection of row n of X by the 256 × 5 matrix M. -/
def proj (X : Mat B 256) (M : Mat 256 5) (n : Fin B) (i : Fin 5) : EReal :=
  ∑ d : Fin 256, X (ix2 n d) * M (ix2 d i)

/-- Gate (i, j) of row n: the logistic function of the product of the two projections' entries plus the bias. -/
def gate (R T : Mat B 256) (A Bm : Mat 256 5) (bias : Mat 5 5) (n : Fin B) (i j : Fin 5) : EReal :=
  Ideal.logistic (proj R A n i * proj T Bm n j + bias (ix2 i j))

/-- The last layer's weight of hidden unit k. -/
def wHidden (fcw : Mat 125 1) (k : Fin 100) : EReal := fcw (ix2 ⟨k.val, by omega⟩ 0)

/-- The last layer's weight of gate (i, j): feature 100 + 5 i + j. -/
def wGate (fcw : Mat 125 1) (i j : Fin 5) : EReal := fcw (ix2 ⟨100 + 5 * i.val + j.val, by omega⟩ 0)

/-- The weighted sum of row n's gates on row i of the 5 × 5 grid. -/
def gateRow (R T : Mat B 256) (A Bm : Mat 256 5) (bias : Mat 5 5) (fcw : Mat 125 1) (n : Fin B) (i : Fin 5) : EReal :=
  ∑ j : Fin 5, gate R T A Bm bias n i j * wGate fcw i j

/-- The weighted sum of row n's hidden units. -/
def hiddenSum (R T : Mat B 256) (W : Mat 256 100) (fcw : Mat 125 1) (n : Fin B) : EReal :=
  ∑ k : Fin 100, hidden R T W n k * wHidden fcw k

/-- THE READ-OUT of row n. -/
def readout (R T : Mat B 256) (W : Mat 256 100) (A Bm : Mat 256 5) (bias : Mat 5 5) (fcw : Mat 125 1)
    (fcb : (⟨1, ![1]⟩ : Shape).Idx → EReal) (n : Fin B) : EReal :=
  (hiddenSum R T W fcw n + ∑ i : Fin 5, gateRow R T A Bm bias fcw n i) + fcb (ix1 0)

/-- Adding the bias to the hidden part first and then the five rows of gates one after the other gives the read-out. -/
theorem readout_rows_in_turn (R T : Mat B 256) (W : Mat 256 100) (A Bm : Mat 256 5) (bias : Mat 5 5) (fcw : Mat 125 1)
    (fcb : (⟨1, ![1]⟩ : Shape).Idx → EReal) (n : Fin B) :
    (((((hiddenSum R T W fcw n + fcb (ix1 0)) + gateRow R T A Bm bias fcw n 0) + gateRow R T A Bm bias fcw n 1)
        + gateRow R T A Bm bias fcw n 2) + gateRow R T A Bm bias fcw n 3) + gateRow R T A Bm bias fcw n 4
      = readout R T W A Bm bias fcw fcb n := by
  unfold readout
  rw [Fin.sum_univ_five]
  ac_rfl

/-- Feature f of row n when the 125 features are laid side by side: the hidden units, then the gates row-major. -/
def feature (R T : Mat B 256) (W : Mat 256 100) (A Bm : Mat 256 5) (bias : Mat 5 5) (n : Fin B) (f : Fin 125) : EReal :=
  if h : f.val < 100 then hidden R T W n ⟨f.val, h⟩
  else gate R T A Bm bias n ⟨(f.val - 100) / 5, by omega⟩ ⟨(f.val - 100) % 5, by omega⟩

/-- One sum over the 125 features, each times its weight, plus the bias, is the read-out. -/
theorem readout_features (R T : Mat B 256) (W : Mat 256 100) (A Bm : Mat 256 5) (bias : Mat 5 5) (fcw : Mat 125 1)
    (fcb : (⟨1, ![1]⟩ : Shape).Idx → EReal) (n : Fin B) :
    (∑ f : Fin 125, feature R T W A Bm bias n f * fcw (ix2 f 0)) + fcb (ix1 0) = readout R T W A Bm bias fcw fcb n := by
  unfold readout
  congr 1
  -- the first 100 features and the last 25
  have split := Fin.sum_univ_add (M := EReal) (a := 100) (b := 25)
    (fun f : Fin (100 + 25) => feature R T W A Bm bias n f * fcw (ix2 f 0))
  refine split.trans ?_
  refine congrArg₂ (· + ·) ?_ ?_
  · -- the hidden units
    unfold hiddenSum
    refine Finset.sum_congr rfl fun k _ => ?_
    have hk : (Fin.castAdd 25 k : Fin (100 + 25)).val < 100 := k.isLt
    show feature R T W A Bm bias n (Fin.castAdd 25 k) * _ = _
    unfold feature
    rw [dif_pos hk]
    rfl
  · -- the gates: position g of the last 25 is gate (g / 5, g % 5)
    have e := (Equiv.sum_comp (finProdFinEquiv (m := 5) (n := 5))
      (fun g : Fin (5 * 5) => feature R T W A Bm bias n (Fin.natAdd 100 g) * fcw (ix2 (Fin.natAdd 100 g) 0))).symm
    refine e.trans ?_
    rw [Fintype.sum_prod_type]
    refine Finset.sum_congr rfl fun i _ => ?_
    unfold gateRow
    refine Finset.sum_congr rfl fun j _ => ?_
    have hv : (Fin.natAdd 100 (finProdFinEquiv (i, j)) : Fin (100 + 5 * 5)).val = 100 + (j.val + 5 * i.val) := rfl
    have hnot : ¬ (Fin.natAdd 100 (finProdFinEquiv (i, j)) : Fin (100 + 5 * 5)).val < 100 := by rw [hv]; omega
    show feature R T W A Bm bias n (Fin.natAdd 100 (finProdFinEquiv (i, j))) * fcw (ix2 (Fin.natAdd 100 (finProdFinEquiv (i, j))) 0) = _
    unfold feature
    rw [dif_neg hnot]
    have hi : (⟨((Fin.natAdd 100 (finProdFinEquiv (i, j)) : Fin (100 + 5 * 5)).val - 100) / 5, by omega⟩ : Fin 5) = i := by
      apply Fin.ext; show (100 + (j.val + 5 * i.val) - 100) / 5 = i.val; omega
    have hj : (⟨((Fin.natAdd 100 (finProdFinEquiv (i, j)) : Fin (100 + 5 * 5)).val - 100) % 5, by omega⟩ : Fin 5) = j := by
      apply Fin.ext; show (100 + (j.val + 5 * i.val) - 100) % 5 = j.val; omega
    rw [hi, hj]
    unfold wGate
    congr 2
    funext a
    apply Fin.ext
    match a with
    | ⟨0, _⟩ => show 100 + (j.val + 5 * i.val) = 100 + 5 * i.val + j.val; omega
    | ⟨1, _⟩ => rfl

end Cert.RouteReadout

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.KernelBlock.lean ====
/-
  What the kernel leaves at one row of its output block is the read-out of that row of the two input blocks.

  The body forms, for a block of 4096 rows: the hidden units' weighted sum plus the bias (one term), and for each of the five
  rows i of the 5 × 5 grid of gates the weighted sum over j of σ(ra(p, i) · tb(p, j) + bias(i, j)), where ra and tb are the two
  projections; it adds the five to the first one after the other. The last layer's 125 weights arrive as a [125, 1] column,
  are read flat, and are cut into the first 100 (the hidden units') and five runs of 5 (the gates' rows).
-/
import proofs.«425666_j57990648430613_2_alg».proof.Proof.Gen.KernelIdeal.Value
import proofs.«425666_j57990648430613_2_alg».proof.Proof.Readout
import proofs.«425666_j57990648430613_2_alg».proof.Proof.LibDenseLayer
import proofs.«425666_j57990648430613_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KernelBlock

open Cert.KernelIdeal Cert.KernelIdeal.Gen Idealize.ShloMosaic Idealize.ShloMosaic.ValueIdx
open Idealize.ShloMosaic.DenseLayer Idealize.ShloMosaic.RowOps
open Cert.RouteReadout

/-! ## The last layer's weights, read flat -/

/-- The [125, 1] column of weights read as a flat vector: entry f is the column's entry (f, 0). -/
theorem flat_weights (P3 : FVec Ideal S125x1 .f32) (f : Fin 125) :
    shapeCast S125 P3 shapeCasts_S125x1_S125 (ix1 f) = P3 (ix2 f (0 : Fin 1)) :=
  shapeCast_apply P3 _ _ _ (by
    rw [Shape.rowMajor_val_two, Shape.rowMajor_val_one]
    show f.val * 1 + 0 = f.val
    omega)

/-- The first 100 flat weights, laid as one row and repeated down the block's rows: at (p, l) the weight of hidden unit l. -/
theorem hidden_weights (P3 : FVec Ideal S125x1 .f32) (p : Fin 4096) (l : Fin 100) :
    broadcastTo S4096x100 (shapeCast S1x100 (extractStridedSlice S100 ![0] (shapeCast S125 P3 shapeCasts_S125x1_S125) slices_S125_o0_S100)
      shapeCasts_S100_S1x100) broadcasts_S1x100_S4096x100 (ix2 p l) = wHidden P3 l := by
  rw [bias_cast_apply]
  refine (extractStridedSlice_apply _ _ slices_S125_o0_S100 (ix1 l) (ix1 ⟨l.val, by omega⟩) (fun a => ?_)).trans ?_
  · match a with
    | ⟨0, _⟩ => show l.val = 0 + l.val; omega
  · exact flat_weights P3 _

/-- Run o of the last 25 flat weights, laid as one row and repeated down the block's rows: at (p, j) the weight of gate (o, j). -/
theorem gate_weights (P3 : FVec Ideal S125x1 .f32) (o o5 : ℕ) (ho : o < 5) (ho5 : o5 = 5 * o) (hs : S25.Slices ![o5] S5)
    (p : Fin 4096) (j : Fin 5) :
    broadcastTo S4096x5 (shapeCast S1x5 (extractStridedSlice S5 ![o5] (extractStridedSlice S25 ![100]
      (shapeCast S125 P3 shapeCasts_S125x1_S125) slices_S125_o100_S25) hs) shapeCasts_S5_S1x5) broadcasts_S1x5_S4096x5 (ix2 p j)
      = wGate P3 ⟨o, ho⟩ j := by
  rw [bias_cast_apply]
  refine (extractStridedSlice_apply _ _ hs (ix1 j) (ix1 ⟨o5 + j.val, by omega⟩) (fun a => ?_)).trans ?_
  · match a with
    | ⟨0, _⟩ => rfl
  refine (extractStridedSlice_apply _ _ slices_S125_o100_S25 (ix1 ⟨o5 + j.val, by omega⟩) (ix1 ⟨100 + (o5 + j.val), by omega⟩) (fun a => ?_)).trans ?_
  · match a with
    | ⟨0, _⟩ => rfl
  refine (flat_weights P3 _).trans ?_
  unfold wGate
  congr 2
  exact Fin.ext (by show 100 + (o5 + j.val) = 100 + 5 * o + j.val; omega)

/-! ## The two projections -/

/-- The route projection's entry (p, i): row p of the route block against column i of the first 256 × 5 matrix. -/
theorem route_proj (P0 : Vec Ideal S4096x256 .bf16) (P5 : Vec Ideal S256x5 .bf16) (p : Fin 4096) (i : Fin 5) :
    k0_pay4 (F := Ideal) P0 P5 (ix2 p i) = proj (B := 4096) P0 P5 p i := by
  unfold k0_pay4 k0_pay2
  dsimp only
  rw [shapeCast_self, shapeCast_self]
  exact matmul_rows_apply dot_S4096x256_S256x5_S4096x5_1_0_0_1_n_n_wf none P0 P5 p i

/-- The time projection's entry (p, j). -/
theorem time_proj (P1 : Vec Ideal S4096x256 .bf16) (P6 : Vec Ideal S256x5 .bf16) (p : Fin 4096) (j : Fin 5) :
    k0_pay5 (F := Ideal) P1 P6 (ix2 p j) = proj (B := 4096) P1 P6 p j := by
  unfold k0_pay5 k0_pay3
  dsimp only
  rw [shapeCast_self, shapeCast_self]
  exact matmul_rows_apply dot_S4096x256_S256x5_S4096x5_1_0_0_1_n_n_wf none P1 P6 p j

/-! ## One row of gates -/

/-- The body's term for row o of the grid of gates, at block row p: column o of the route projection, kept as a column and
    repeated along the row, times the time projection, plus row o of the bias repeated down the rows, through the logistic
    function, times run o of the gates' weights, summed along the row. -/
theorem gate_row_term (ra tb : FVec Ideal S4096x5 .f32) (P7 : FVec Ideal S5x5 .f32) (P3 : FVec Ideal S125x1 .f32)
    (o o5 : ℕ) (ho : o < 5) (ho5 : o5 = 5 * o)
    (hs1 : S4096x5.Slices ![0, o] S4096x1) (hs2 : S5x5.Slices ![o, 0] S1x5) (hs3 : S25.Slices ![o5] S5) (p : Fin 4096) :
    multiReduction (F := Ideal) .add [1] S4096 (mulf (logistic (addf (mulf (broadcastTo S4096x5 (extractStridedSlice S4096x1 ![0, o] ra hs1)
        broadcasts_S4096x1_S4096x5) tb) (broadcastTo S4096x5 (shapeCast S1x5 (shapeCast S5 (extractStridedSlice S1x5 ![o, 0] P7 hs2)
        shapeCasts_S1x5_S5) shapeCasts_S5_S1x5) broadcasts_S1x5_S4096x5))) (broadcastTo S4096x5 (shapeCast S1x5 (extractStridedSlice S5 ![o5]
        (extractStridedSlice S25 ![100] (shapeCast S125 P3 shapeCasts_S125x1_S125) slices_S125_o100_S25) hs3) shapeCasts_S5_S1x5)
        broadcasts_S1x5_S4096x5)) 0x00000000#32 reduces_S4096x5_S4096 (.inl rfl) rfl (ix1 p)
      = ∑ j : Fin 5, Ideal.logistic (ra (ix2 p ⟨o, ho⟩) * tb (ix2 p j) + P7 (ix2 ⟨o, ho⟩ j)) * wGate P3 ⟨o, ho⟩ j := by
  refine (multiReduction_add_row _ _ reduces_S4096x5_S4096 _ _ p).trans ?_
  refine Finset.sum_congr rfl fun j _ => ?_
  have e1 : broadcastTo S4096x5 (extractStridedSlice S4096x1 ![0, o] ra hs1) broadcasts_S4096x1_S4096x5 (ix2 p j) = ra (ix2 p ⟨o, ho⟩) := by
    rw [broadcastTo_a1_ab_apply]
    exact extractStridedSlice_apply _ ra hs1 _ (ix2 p ⟨o, ho⟩) (fun a => by
      match a with
      | ⟨0, _⟩ => show p.val = 0 + p.val; omega
      | ⟨1, _⟩ => show o = o + 0; omega)
  have e2 : broadcastTo S4096x5 (shapeCast S1x5 (shapeCast S5 (extractStridedSlice S1x5 ![o, 0] P7 hs2) shapeCasts_S1x5_S5) shapeCasts_S5_S1x5)
      broadcasts_S1x5_S4096x5 (ix2 p j) = P7 (ix2 ⟨o, ho⟩ j) := by
    rw [bias_cast_apply, shapeCast_1a_a_apply]
    exact extractStridedSlice_apply _ P7 hs2 _ (ix2 ⟨o, ho⟩ j) (fun a => by
      match a with
      | ⟨0, _⟩ => show o = o + 0; omega
      | ⟨1, _⟩ => show j.val = 0 + j.val; omega)
  have e3 := gate_weights P3 o o5 ho ho5 hs3 p j
  show Ideal.logistic (broadcastTo S4096x5 (extractStridedSlice S4096x1 ![0, o] ra hs1) broadcasts_S4096x1_S4096x5 (ix2 p j) * tb (ix2 p j)
      + broadcastTo S4096x5 (shapeCast S1x5 (shapeCast S5 (extractStridedSlice S1x5 ![o, 0] P7 hs2) shapeCasts_S1x5_S5) shapeCasts_S5_S1x5)
        broadcasts_S1x5_S4096x5 (ix2 p j))
      * broadcastTo S4096x5 (shapeCast S1x5 (extractStridedSlice S5 ![o5] (extractStridedSlice S25 ![100]
        (shapeCast S125 P3 shapeCasts_S125x1_S125) slices_S125_o100_S25) hs3) shapeCasts_S5_S1x5) broadcasts_S1x5_S4096x5 (ix2 p j) = _
  rw [e1, e2, e3]

/-! ## The hidden units' part -/

/-- The body's first term at block row p: the hidden units of the row (the rectified product of r ⊙ t with W), each times
    its weight, summed along the row, plus the bias. -/
theorem hidden_part (P0 P1 : Vec Ideal S4096x256 .bf16) (P2 : Vec Ideal S256x100 .bf16) (P3 : Vec Ideal S125x1 .f32)
    (P4 : Vec Ideal S1 .f32) (p : Fin 4096) :
    k0_pay8 (F := Ideal) P0 P1 P2 P3 P4 (ix1 p) = hiddenSum (B := 4096) P0 P1 P2 P3 p + P4 (ix1 (0 : Fin 1)) := by
  unfold k0_pay8 k0_pay2 k0_pay3 k0_pay6
  dsimp only
  rw [shapeCast_self, shapeCast_self, shapeCast_self]
  refine (addf_apply _ _ (ix1 p)).trans ?_
  refine congrArg₂ (· + ·) ?_ ?_
  · refine (multiReduction_add_row _ _ reduces_S4096x100_S4096 _ _ p).trans ?_
    unfold hiddenSum
    refine Finset.sum_congr rfl fun l _ => ?_
    refine (mulf_apply _ _ (ix2 p l)).trans ?_
    refine congrArg₂ (· * ·) ?_ (hidden_weights P3 p l)
    refine (maximumf_apply _ _ (ix2 p l)).trans ?_
    unfold Cert.RouteReadout.hidden
    refine congrArg₂ max ?_ ?_
    · exact matmul_rows_apply dot_S4096x256_S256x100_S4096x100_1_0_0_1_n_n_wf none (mulf P0 P1) P2 p l
    · show Ideal.ofBits .f32 0x00000000#32 = 0
      exact Ideal.ofBits_zero_f32
  · show P4 _ = P4 _
    refine congrArg P4 (funext fun a => Fin.ext ?_)
    match a with
    | ⟨0, _⟩ => rfl

/-! ## The block's row -/

/-- WHAT THE BODY LEAVES AT ROW p OF ITS OUTPUT BLOCK is the read-out of row p of the route and time blocks: the hidden part
    with the bias, then the five rows of gates added one after the other. -/
theorem block_row (P0 P1 : Vec Ideal S4096x256 .bf16) (P2 : Vec Ideal S256x100 .bf16) (P3 : Vec Ideal S125x1 .f32)
    (P4 : Vec Ideal S1 .f32) (P5 P6 : Vec Ideal S256x5 .bf16) (P7 : Vec Ideal S5x5 .f32) (p : Fin 4096) :
    Value.E8 (F := Ideal) P0 P1 P2 P3 P4 P5 P6 P7 (ix1 p) = readout (B := 4096) P0 P1 P2 P5 P6 P7 P3 P4 p := by
  rw [← readout_rows_in_turn]
  have h0 : Value.ix8_0 (ix1 p) = ix1 p := funext fun a => by match a with | ⟨0, _⟩ => rfl
  have h1 : Value.ix8_1 (ix1 p) = ix1 p := funext fun a => by match a with | ⟨0, _⟩ => rfl
  have h2 : Value.ix8_2 (ix1 p) = ix1 p := funext fun a => by match a with | ⟨0, _⟩ => rfl
  have h3 : Value.ix8_3 (ix1 p) = ix1 p := funext fun a => by match a with | ⟨0, _⟩ => rfl
  have h4 : Value.ix8_4 (ix1 p) = ix1 p := funext fun a => by match a with | ⟨0, _⟩ => rfl
  have h5 : Value.ix8_5 (ix1 p) = ix1 p := funext fun a => by match a with | ⟨0, _⟩ => rfl
  dsimp only [Value.E8]
  rw [h0, h1, h2, h3, h4, h5, hidden_part,
    gate_row_term (k0_pay4 P0 P5) (k0_pay5 P1 P6) P7 P3 0 0 (by omega) rfl slices_S4096x5_o0_0_S4096x1 slices_S5x5_o0_0_S1x5 slices_S25_o0_S5 p,
    gate_row_term (k0_pay4 P0 P5) (k0_pay5 P1 P6) P7 P3 1 5 (by omega) rfl slices_S4096x5_o0_1_S4096x1 slices_S5x5_o1_0_S1x5 slices_S25_o5_S5 p,
    gate_row_term (k0_pay4 P0 P5) (k0_pay5 P1 P6) P7 P3 2 10 (by omega) rfl slices_S4096x5_o0_2_S4096x1 slices_S5x5_o2_0_S1x5 slices_S25_o10_S5 p,
    gate_row_term (k0_pay4 P0 P5) (k0_pay5 P1 P6) P7 P3 3 15 (by omega) rfl slices_S4096x5_o0_3_S4096x1 slices_S5x5_o3_0_S1x5 slices_S25_o15_S5 p,
    gate_row_term (k0_pay4 P0 P5) (k0_pay5 P1 P6) P7 P3 4 20 (by omega) rfl slices_S4096x5_o0_4_S4096x1 slices_S5x5_o4_0_S1x5 slices_S25_o20_S5 p]
  simp only [route_proj, time_proj]
  rfl

end Cert.KernelIdeal.KernelBlock

end
-- ==== Proof.KernelArray.lean ====
/-
  From the blocks the grid points write back to the whole result array.

  The grid has 64 points; point t writes block t (4096 consecutive entries) of the result, and reads block t of the route and
  of the time batch (4096 rows each) and the whole of each weight array. What it writes at entry p of its block is the
  read-out of row p of its two input blocks, which is row 4096 t + p of the two batches: the read-out of a row looks at that
  row of the batches only. The 64 blocks tile the 262144 entries, so the array ends as the read-out of every row.
-/
import proofs.«425666_j57990648430613_2_alg».proof.Proof.Gen.KernelIdeal.Value
import proofs.«425666_j57990648430613_2_alg».proof.Proof.KernelBlock
import Idealize.ShloMosaic.Lib.Pipeline.Value
import Idealize.ShloMosaic.Lib.ValueIdx

set_option maxRecDepth 16384

noncomputable section

namespace Cert.KernelIdeal.KernelArray

open Cert.KernelIdeal Cert.KernelIdeal.Gen Idealize.ShloMosaic Idealize.ShloMosaic.TcCoe Idealize.SL.Sem Idealize.ShloMosaic.ValueIdx
open Idealize.ShloMosaic.Pipeline (Dat)
open Cert.RouteReadout

variable (m : (ℓ : Loc nD τ sig) → Buf (Elt Ideal) ℓ) (ρ : Dev nD → PrngReg)

/-! ## The arrays the windows find, and the blocks a point is given, by their literal types -/

abbrev rArr (c : Dev nD) : Vec Ideal S262144x256 .bf16 := V m c main_v1
abbrev tArr (c : Dev nD) : Vec Ideal S262144x256 .bf16 := V m c main_v3
abbrev wArr (c : Dev nD) : Vec Ideal S256x100 .bf16 := V m c main_v4
abbrev aArr (c : Dev nD) : Vec Ideal S256x5 .bf16 := V m c main_v5
abbrev bArr (c : Dev nD) : Vec Ideal S256x5 .bf16 := V m c main_v6
abbrev biasArr (c : Dev nD) : Vec Ideal S5x5 .f32 := V m c main_arg7
abbrev fcwArr (c : Dev nD) : Vec Ideal S125x1 .f32 := V m c main_arg8
abbrev fcbArr (c : Dev nD) : Vec Ideal S1 .f32 := V m c main_arg9

abbrev rBlk (c : Dev nD) (t : Fin cfg0.N) : Vec Ideal S4096x256 .bf16 := iblk m c 0 t
abbrev tBlk (c : Dev nD) (t : Fin cfg0.N) : Vec Ideal S4096x256 .bf16 := iblk m c 1 t
abbrev wBlk (c : Dev nD) (t : Fin cfg0.N) : Vec Ideal S256x100 .bf16 := iblk m c 2 t
abbrev aBlk (c : Dev nD) (t : Fin cfg0.N) : Vec Ideal S256x5 .bf16 := iblk m c 3 t
abbrev bBlk (c : Dev nD) (t : Fin cfg0.N) : Vec Ideal S256x5 .bf16 := iblk m c 4 t
abbrev biasBlk (c : Dev nD) (t : Fin cfg0.N) : Vec Ideal S5x5 .f32 := iblk m c 5 t
abbrev fcwBlk (c : Dev nD) (t : Fin cfg0.N) : Vec Ideal S125x1 .f32 := iblk m c 6 t
abbrev fcbBlk (c : Dev nD) (t : Fin cfg0.N) : Vec Ideal S1 .f32 := iblk m c 7 t

/-- THE RESULT ARRAY: entry n is the read-out of row n of the two batches the windows find. -/
def result (c : Dev nD) : S262144.Idx → EReal := fun i =>
  readout (B := 262144) (rArr m c) (tArr m c) (wArr m c) (aArr m c) (bArr m c) (biasArr m c) (fcwArr m c) (fcbArr m c)
    ⟨(i 0).val, (i 0).isLt⟩

/-! ## The read-out of a row looks at that row only -/

/-- Two pairs of batches that agree on one row each have the same read-out there. -/
theorem readout_row_congr {B B' : ℕ} (R T : Mat B 256) (R' T' : Mat B' 256) (W : Mat 256 100) (A Bm : Mat 256 5) (bias : Mat 5 5)
    (fcw : Mat 125 1) (fcb : (⟨1, ![1]⟩ : Shape).Idx → EReal) (n : Fin B) (n' : Fin B')
    (hR : ∀ d : Fin 256, R (ix2 n d) = R' (ix2 n' d)) (hT : ∀ d : Fin 256, T (ix2 n d) = T' (ix2 n' d)) :
    readout R T W A Bm bias fcw fcb n = readout R' T' W A Bm bias fcw fcb n' := by
  unfold readout hiddenSum gateRow gate proj Cert.RouteReadout.hidden
  simp only [hR, hT]

/-! ## The index maps over the grid -/

theorem hz2 : (![0, 0] : Fin 2 → Nat) = fun _ => 0 := funext fun a => by fin_cases a <;> rfl
theorem hz1 : (![0] : Fin 1 → Nat) = fun _ => 0 := funext fun a => by fin_cases a; rfl

/-- The printed index maps, decided over the 64 grid points: the two batches' block moves with the result's, every weight
    array is one block, and the result's block index is at most 63. -/
theorem idx_facts : ∀ t : Fin cfg0.N, win0_0.index t (0 : Fin 2) = win0_8.index t (0 : Fin 1)
    ∧ win0_0.index t (1 : Fin 2) = 0
    ∧ win0_1.index t (0 : Fin 2) = win0_8.index t (0 : Fin 1)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 1) ≤ 63 :=
  (by decide +kernel : ∀ t : Fin grid0.N, _)

/-- Every one of the 64 blocks of the result is some point's. -/
theorem idx_onto : ∀ q : Fin 64, ∃ t : Fin cfg0.N, win0_8.index t = ![q.val] :=
  (by decide +kernel : ∀ q : Fin 64, ∃ t : Fin grid0.N, win0_8.index t = ![q.val])

/-! ## What a point's blocks are -/

/-- Row p of point t's route block is row 4096 · (the point's block index) + p of the route batch. -/
theorem rBlk_row (c : Dev nD) (t : Fin cfg0.N) (p : Fin 4096) (d : Fin 256) (n : Fin 262144)
    (hn : n.val = win0_8.index t (0 : Fin 1) * 4096 + p.val) : rBlk m c t (ix2 p d) = rArr m c (ix2 n d) := by
  obtain ⟨e0, e1, -⟩ := idx_facts t
  show V m c main_v1 (((cfg0.win 0).blk t).view.emb (ix2 p d)) = V m c main_v1 (ix2 n d)
  refine congrArg (V m c main_v1) (funext fun a => Fin.ext ?_)
  match a with
  | ⟨0, _⟩ => show win0_0.index t (0 : Fin 2) * 4096 + 1 * p.val = n.val; omega
  | ⟨1, _⟩ => show win0_0.index t (1 : Fin 2) * 256 + 1 * d.val = d.val; omega

/-- Row p of point t's time block is the same row of the time batch. -/
theorem tBlk_row (c : Dev nD) (t : Fin cfg0.N) (p : Fin 4096) (d : Fin 256) (n : Fin 262144)
    (hn : n.val = win0_8.index t (0 : Fin 1) * 4096 + p.val) : tBlk m c t (ix2 p d) = tArr m c (ix2 n d) := by
  obtain ⟨-, -, e2, e3, -⟩ := idx_facts t
  show V m c main_v3 (((cfg0.win 1).blk t).view.emb (ix2 p d)) = V m c main_v3 (ix2 n d)
  refine congrArg (V m c main_v3) (funext fun a => Fin.ext ?_)
  match a with
  | ⟨0, _⟩ => show win0_1.index t (0 : Fin 2) * 4096 + 1 * p.val = n.val; omega
  | ⟨1, _⟩ => show win0_1.index t (1 : Fin 2) * 256 + 1 * d.val = d.val; omega

/-- A weight array is its one block, at every point. -/
theorem wBlk_eq (c : Dev nD) (t : Fin cfg0.N) : wBlk m c t = wArr m c := by
  obtain ⟨-, -, -, -, e4, e5, -⟩ := idx_facts t
  funext y
  show V m c main_v4 (((cfg0.win 2).blk t).view.emb y) = V m c main_v4 y
  refine congrArg (V m c main_v4) (funext fun a => Fin.ext ?_)
  match a with
  | ⟨0, _⟩ => show win0_2.index t (0 : Fin 2) * 256 + 1 * (y 0).val = (y 0).val; omega
  | ⟨1, _⟩ => show win0_2.index t (1 : Fin 2) * 100 + 1 * (y 1).val = (y 1).val; omega
theorem aBlk_eq (c : Dev nD) (t : Fin cfg0.N) : aBlk m c t = aArr m c := by
  obtain ⟨-, -, -, -, -, -, e6, e7, -⟩ := idx_facts t
  funext y
  show V m c main_v5 (((cfg0.win 3).blk t).view.emb y) = V m c main_v5 y
  refine congrArg (V m c main_v5) (funext fun a => Fin.ext ?_)
  match a with
  | ⟨0, _⟩ => show win0_3.index t (0 : Fin 2) * 256 + 1 * (y 0).val = (y 0).val; omega
  | ⟨1, _⟩ => show win0_3.index t (1 : Fin 2) * 5 + 1 * (y 1).val = (y 1).val; omega
theorem bBlk_eq (c : Dev nD) (t : Fin cfg0.N) : bBlk m c t = bArr m c := by
  obtain ⟨-, -, -, -, -, -, -, -, e8, e9, -⟩ := idx_facts t
  funext y
  show V m c main_v6 (((cfg0.win 4).blk t).view.emb y) = V m c main_v6 y
  refine congrArg (V m c main_v6) (funext fun a => Fin.ext ?_)
  match a with
  | ⟨0, _⟩ => show win0_4.index t (0 : Fin 2) * 256 + 1 * (y 0).val = (y 0).val; omega
  | ⟨1, _⟩ => show win0_4.index t (1 : Fin 2) * 5 + 1 * (y 1).val = (y 1).val; omega
theorem biasBlk_eq (c : Dev nD) (t : Fin cfg0.N) : biasBlk m c t = biasArr m c := by
  obtain ⟨-, -, -, -, -, -, -, -, -, -, e10, e11, -⟩ := idx_facts t
  funext y
  show V m c main_arg7 (((cfg0.win 5).blk t).view.emb y) = V m c main_arg7 y
  refine congrArg (V m c main_arg7) (funext fun a => Fin.ext ?_)
  match a with
  | ⟨0, _⟩ => show win0_5.index t (0 : Fin 2) * 5 + 1 * (y 0).val = (y 0).val; omega
  | ⟨1, _⟩ => show win0_5.index t (1 : Fin 2) * 5 + 1 * (y 1).val = (y 1).val; omega
theorem fcwBlk_eq (c : Dev nD) (t : Fin cfg0.N) : fcwBlk m c t = fcwArr m c := by
  obtain ⟨-, -, -, -, -, -, -, -, -, -, -, -, e12, e13, -⟩ := idx_facts t
  funext y
  show V m c main_arg8 (((cfg0.win 6).blk t).view.emb y) = V m c main_arg8 y
  refine congrArg (V m c main_arg8) (funext fun a => Fin.ext ?_)
  match a with
  | ⟨0, _⟩ => show win0_6.index t (0 : Fin 2) * 125 + 1 * (y 0).val = (y 0).val; omega
  | ⟨1, _⟩ => show win0_6.index t (1 : Fin 2) * 1 + 1 * (y 1).val = (y 1).val; omega
theorem fcbBlk_eq (c : Dev nD) (t : Fin cfg0.N) : fcbBlk m c t = fcbArr m c := by
  obtain ⟨-, -, -, -, -, -, -, -, -, -, -, -, -, -, e14, -⟩ := idx_facts t
  funext y
  show V m c main_arg9 (((cfg0.win 7).blk t).view.emb y) = V m c main_arg9 y
  refine congrArg (V m c main_arg9) (funext fun a => Fin.ext ?_)
  match a with
  | ⟨0, _⟩ => show win0_7.index t (0 : Fin 1) * 1 + 1 * (y 0).val = (y 0).val; omega

/-! ## What a point writes back -/

/-- Entry p of what point t leaves in the output block: the read-out of row p of its route and time blocks. -/
theorem out_row (c : Dev nD) (t : Fin cfg0.N) (p : Fin 4096) :
    out0_8 (rBlk m c t) (tBlk m c t) (wBlk m c t) (aBlk m c t) (bBlk m c t) (biasBlk m c t) (fcwBlk m c t) (fcbBlk m c t) (ix1 p)
      = readout (B := 4096) (rBlk m c t) (tBlk m c t) (wBlk m c t) (aBlk m c t) (bBlk m c t) (biasBlk m c t) (fcwBlk m c t) (fcbBlk m c t) p := by
  unfold out0_8
  refine (Value.canon8_eq _ _ _ _ _ _ _ _ (ix1 p)).trans ?_
  simp only [View.ld_unit_zero (S := S4096x256) hz2, View.ld_unit_zero (S := S256x100) hz2, View.ld_unit_zero (S := S256x5) hz2,
    View.ld_unit_zero (S := S5x5) hz2, View.ld_unit_zero (S := S125x1) hz2, View.ld_unit_zero (S := S1) hz1]
  exact KernelBlock.block_row _ _ _ _ _ _ _ _ p

/-- WHAT POINT t WRITES BACK is block t of the result array. -/
theorem flushed_eq (c : Dev nD) (t : Fin cfg0.N) :
    (dats m 0 c).flushed 8 t = ((cfg0.win 8).blk t).view.read (Elt Ideal) (result m c) := by
  rw [Value.flushed8]
  obtain ⟨-, -, -, -, -, -, -, -, -, -, -, -, -, -, -, e15⟩ := idx_facts t
  funext j
  have hjlt : (j 0).val < 4096 := (j 0).isLt
  have hj : (j : S4096.Idx) = ix1 (⟨(j 0).val, hjlt⟩ : Fin 4096) := funext fun a => by match a with | ⟨0, _⟩ => rfl
  have hnlt : win0_8.index t (0 : Fin 1) * 4096 + (j 0).val < 262144 := by omega
  show out0_8 (rBlk m c t) (tBlk m c t) (wBlk m c t) (aBlk m c t) (bBlk m c t) (biasBlk m c t) (fcwBlk m c t) (fcbBlk m c t) j
    = result m c (((cfg0.win 8).blk t).view.emb j)
  have he : ((cfg0.win 8).blk t).view.emb j = ix1 (⟨win0_8.index t (0 : Fin 1) * 4096 + (j 0).val, hnlt⟩ : Fin 262144) :=
    funext fun a => Fin.ext (by
      match a with
      | ⟨0, _⟩ => show win0_8.index t (0 : Fin 1) * 4096 + 1 * (j 0).val = win0_8.index t (0 : Fin 1) * 4096 + (j 0).val; omega)
  rw [he]
  refine (congrArg (out0_8 (rBlk m c t) (tBlk m c t) (wBlk m c t) (aBlk m c t) (bBlk m c t) (biasBlk m c t) (fcwBlk m c t) (fcbBlk m c t)) hj).trans ?_
  refine (out_row m c t ⟨(j 0).val, hjlt⟩).trans ?_
  rw [wBlk_eq, aBlk_eq, bBlk_eq, biasBlk_eq, fcwBlk_eq, fcbBlk_eq]
  exact readout_row_congr _ _ _ _ _ _ _ _ _ _ _ _
    (fun d => rBlk_row m c t _ d ⟨win0_8.index t (0 : Fin 1) * 4096 + (j 0).val, hnlt⟩ rfl)
    (fun d => tBlk_row m c t _ d ⟨win0_8.index t (0 : Fin 1) * 4096 + (j 0).val, hnlt⟩ rfl)

/-! ## The blocks tile the result -/

/-- An entry of the result is in point t's block iff it lies in the 4096 entries from 4096 times the block index on. -/
theorem mem_blk (t : Fin cfg0.N) (i : S262144.Idx) :
    i ∈ ((cfg0.win 8).blk t).view.set ↔ ∀ a : Fin 1, win0_8.index t a * S4096.size a ≤ (i a).val ∧ (i a).val < win0_8.index t a * S4096.size a + S4096.size a := by
  show i ∈ ((View.whole main_v7).slice (win0_8.rect t)).set ↔ _
  rw [View.set_slice_whole, Rect.mem_set_unit]
  exact Iff.rfl

/-- Every entry of the result is in the block of some point that writes back: entry n in block n / 4096. -/
theorem cover (i : S262144.Idx) : ∃ t : Fin cfg0.N, (cfg0.win 8).flush t = true ∧ i ∈ ((cfg0.win 8).blk t).view.set := by
  have hi : (i 0).val < 262144 := (i 0).isLt
  obtain ⟨t, ht⟩ := idx_onto ⟨(i 0).val / 4096, by omega⟩
  have q : win0_8.index t (0 : Fin 1) = (i 0).val / 4096 := congrFun ht 0
  refine ⟨t, flush0_8 t, ?_⟩
  rw [mem_blk]
  intro a
  match a with
  | ⟨0, _⟩ => show win0_8.index t (0 : Fin 1) * 4096 ≤ (i 0).val ∧ (i 0).val < win0_8.index t (0 : Fin 1) * 4096 + 4096; omega

/-- THE RESULT ARRAY after the run. -/
theorem final (c : Dev nD) : (dats m 0 c).arrAt 8 cfg0.N = result m c :=
  (dats m 0 c).arrAt_eq_of_cover 8 (result m c) (fun t _ => flushed_eq m c t) (cover)

/-! ## The run -/

/-- Every weakly fair execution of the kernel's program ends with the result array at the read-out of every row of the
    batches its windows find, and the arguments as they were. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.KernelArray

end
-- ==== Proof.Embedding.lean ====
/-
  The embedding of a batch of index words into a table's rows.

  An index word x is read into a table of N rows the way NumPy reads an index: a negative word has N added (wrapWord). The
  row the wrapped word names is the word as a signed integer kept inside 0 … N − 1 (rowOf): a gather clamps its start
  index so that the slice stays inside the table. Row e of the embedded batch is the table's row named by index word e.

  A word is in range when, as a signed word, it is at least 0 and below N. For such a word wrapping changes nothing and
  the clamp does not bind: the row is the word itself.
-/
import Idealize.ShloMosaic.PureOps
import Idealize.ShloMosaic.Lib.ValueIdx
import proofs.«425666_j57990648430613_2_alg».proof.Proof.Readout

noncomputable section

namespace Cert.RouteReadout

open Idealize.ShloMosaic Idealize.ShloMosaic.ValueIdx

/-- An index word as NumPy reads it into a table whose row count is the word N: a negative word has N added. -/
def wrapWord (N x : BitVec 32) : BitVec 32 := Scalar.select (IntOp.cmpi .slt x 0#32) (IntOp.addi x N) x

/-- The table row a (wrapped) word names: the word read as a signed integer, kept inside 0 … N − 1. -/
def rowOf (N : ℕ) (hN : 0 < N) (x : BitVec 32) : Fin N := ⟨min x.toInt.toNat (N - 1), by omega⟩

/-- The embedded batch: entry (e, d) is the table's entry (row named by index word e, d). -/
def embed {N B : ℕ} (hN : 0 < N) (table : Mat N 256) (idx : IVec ⟨1, ![B]⟩ 32) : Mat B 256 :=
  fun i => table (ix2 (rowOf N hN (wrapWord (BitVec.ofNat 32 N) (idx (ix1 ⟨(i 0).val, (i 0).isLt⟩)))) ⟨(i 1).val, (i 1).isLt⟩)

/-- An index word is in range of a table whose row count is the word N: at least 0 and below N, as signed words. -/
def InRange (N x : BitVec 32) : Prop := IntOp.cmpi .sge x 0#32 = 1#1 ∧ IntOp.cmpi .slt x N = 1#1

end Cert.RouteReadout

end
-- ==== Proof.LibGatherRows.lean ====
/-
  A gather of whole rows of a table, read at an index.

  A table `T : [N, C]` gathered at a column `idx : [R, 1]` of start indices with offset_dims = [1],
  collapsed_slice_dims = [0], start_index_map = [0], index_vector_dim = 1 and slice sizes [1, C] has the result `[R, C]`
  whose row `e` is a row of the table. Read at `(e, j)` it is the table at `(r, j)`, where `r` is the start index
  `idx[e, 0]` read as a signed integer and clamped into `[0, N − 1]`: the one start-indexed axis is collapsed, so its
  slice has extent one and the clamp's upper end is `N − 1`; the column axis is the one offset axis, not start-indexed, so
  its slice starts at column 0 and the result's column coordinate is the table's.

  Stated for any dimension-numbers record with those field values (`gather_rows`), and for the record built from the
  extents and the well-formedness witness alone (`rowDims`, `gather_rowDims_apply`).
-/
import Idealize.ShloMosaic.PureOps.ShapeOps
import Idealize.ShloMosaic.Lib.ValueIdx

namespace Idealize.ShloMosaic.GatherRows

open Idealize.ShloMosaic Idealize.ShloMosaic.ValueIdx

/-- A list that is one entry long has that entry at every position it has. -/
theorem getElem_of_eq_singleton {β : Type} (l : List β) (b : β) (n : Nat) (h : n < l.length) (hl : l = [b]) : l[n] = b := by
  subst hl
  have : n = 0 := by simpa using h
  subst this; rfl

/-- THE ROW GATHER READ AT `(e, j)`. For dimension numbers over a table `[N, C]`, start indices `[R, 1]` and result
    `[R, C]` with offset axis 1, collapsed axis 0, no batching axes, start index map `[0]` and the index vector on axis 1
    (`hoff` … `hivd`: the record's field values; its conditions give the slice sizes `[1, C]`): the table at row
    `idx[e, 0]`, read signed and clamped into `[0, N − 1]`, column `j`. -/
theorem gather_rows {α : Type} {N R C w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (T : (⟨2, ![N, C]⟩ : Shape).Idx → α) (idx : IVec ⟨2, ![R, 1]⟩ w) (e : Fin R) (j : Fin C) (hN : 0 < N) :
    Host.gather d T idx (ix2 e j) = T (ix2 ⟨min (idx (ix2 e 0)).toInt.toNat (N - 1), by omega⟩ j) := by
  unfold Host.gather
  congr 1
  funext a
  apply Fin.ext
  have hb : ∀ a, a ∉ d.operandBatchingDims := fun a => by rw [hob]; exact List.not_mem_nil
  match a with
  | ⟨0, _⟩ =>
    -- the row axis: start-indexed and collapsed, so the coordinate is the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e j) idx 0 + d.batchCoord (ix2 e j) 0 + d.offCoord (ix2 e j) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 e 0)).toInt.toNat (N - 1)
    rw [hsl]
    congr 3
    congr 1
    -- the start-indices index of result index (e, j), component 0, is (e, 0)
    funext b
    match b with
    | ⟨0, _⟩ =>
      unfold GatherDims.siIdx
      rw [dif_neg (by rw [hivd]; simp)]
      unfold GatherDims.siCoord
      apply Fin.ext
      simp only [Fin.val_cast]
      have hbd : d.batchDims = [0] := by
        show Shape.kept _ d.offsetDims = _
        rw [hoff]; rfl
      rw [getElem_of_eq_singleton d.batchDims 0 _ _ hbd]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: the one offset axis, not start-indexed, so the coordinate is the result's column
    have hk : (1 : Fin 2) ∈ d.sKept := by rw [GatherDims.mem_sKept, hcoll]; exact ⟨by simp, hb 1⟩
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1)]
    unfold GatherDims.start GatherDims.offCoord
    rw [dif_neg hm, dif_pos hk]
    simp only [Nat.add_zero, Nat.zero_add]
    rw [getElem_of_eq_singleton d.offsetDims 1 _ _ hoff]
    rfl

/-- Those dimension numbers for a table `[N, C]`, start indices `[R, 1]` and result `[R, C]`; their conditions `wf` are
    decided on literal extents. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather by `rowDims` read at `(e, j)`. -/
theorem gather_rowDims_apply {α : Type} {N R C w : Nat} (hN : 0 < N)
    (wf : GatherDims.WF ⟨2, ![N, C]⟩ ⟨2, ![R, 1]⟩ ⟨2, ![R, C]⟩ [1] [0] [] [0] [] 1 ![1, C])
    (T : (⟨2, ![N, C]⟩ : Shape).Idx → α) (idx : IVec ⟨2, ![R, 1]⟩ w) (e : Fin R) (j : Fin C) :
    Host.gather (rowDims N R C wf) T idx (ix2 e j) = T (ix2 ⟨min (idx (ix2 e 0)).toInt.toNat (N - 1), by omega⟩ j) :=
  gather_rows (rowDims N R C wf) rfl rfl rfl rfl rfl T idx e j hN

end Idealize.ShloMosaic.GatherRows
-- ==== Proof.LibHostReads.lean ====
/-
  Host broadcasts and an all-true mask, read at an index.

  A vector [n] laid out as a column [n, 1] keeps its entries; laid along the first axis of an [n, m] matrix it is constant
  along each row. A reduction by `and`, started from the bit 1, of an array of bits that are all 1 is the bit 1 at every
  result index, whatever the axes reduced.
-/
import Idealize.ShloMosaic.PureOps.Reduce
import Idealize.ShloMosaic.Lib.ValueIdx

namespace Idealize.ShloMosaic.HostReads

open Idealize.ShloMosaic Idealize.ShloMosaic.ValueIdx

variable {α : Type}

/-- A vector `[n]` broadcast to a column `[n, 1]` along axis 0 reads, at `(p, u)`, the vector at `p`. -/
theorem broadcastInDim_vec_col_apply {n : ℕ} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) := by
  unfold broadcastInDim
  congr 1
  funext a
  match a with
  | ⟨0, _⟩ =>
    apply Fin.ext
    dsimp only
    split
    · rename_i h1
      have h1' : n = 1 := h1
      have := p.isLt
      show (0 : ℕ) = p.val
      omega
    · rfl

/-- A vector `[n]` broadcast along the first axis of an `[n, m]` matrix reads, at `(p, q)`, the vector at `p`. -/
theorem broadcastInDim_vec_rows_apply {n m : ℕ} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  unfold broadcastInDim
  congr 1
  funext a
  match a with
  | ⟨0, _⟩ =>
    apply Fin.ext
    dsimp only
    split
    · rename_i h1
      have h1' : n = 1 := h1
      have := p.isLt
      show (0 : ℕ) = p.val
      omega
    · rfl

/-- A left fold by `and` from the bit 1 over bits that are all 1 is 1. -/
theorem foldl_andi_one {ι : Type} (f : ι → BitVec 1) (hf : ∀ i, f i = 1#1) :
    ∀ (l : List ι) (r : BitVec 1), r = 1#1 → l.foldl (fun r n => IntOp.andi r (f n)) r = 1#1
  | [], r, hr => hr
  | a :: l, r, hr => by
    rw [List.foldl_cons]
    exact foldl_andi_one f hf l _ (by rw [hr, hf a]; decide)

/-- A reduction by `and` from an initial 1 of an array of bits that are all 1 is 1 at every result index. -/
theorem reduce_andi_of_forall_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_one x hx _ _ hinit

end Idealize.ShloMosaic.HostReads
-- ==== Proof.HostArrays.lean ====
/-
  What the kernel's windows find in their arrays: under in-range index words the two gathered batches are the embedded
  batches (the fill the take puts on out-of-range rows is never selected), and the three weight matrices are the arguments
  (a change of float format is the identity on extended reals).

  The take of a table T of N rows at index words x_e computes, for each e: the wrapped word w_e (N added to a negative
  word); the bit "0 ≤ w_e and w_e ≤ N − 1", and-reduced over a unit axis; row e of the gather of T at the column of the
  w_e, whose start index is read signed and clamped into 0 … N − 1; and selects that row where the bit is 1, a constant fill
  where it is 0. The embedded batch is defined by the same wrapping and the same clamp, so the gathered row IS the embedded
  row, whatever the word; what the range hypothesis gives is that every bit is 1: an in-range word is not negative, so it is
  its own wrapping, and it is below N, so it is at most N − 1.
-/
import proofs.«425666_j57990648430613_2_alg».proof.Proof.Gen.KernelIdeal.Frame
import proofs.«425666_j57990648430613_2_alg».proof.Proof.Embedding
import proofs.«425666_j57990648430613_2_alg».proof.Proof.LibGatherRows
import proofs.«425666_j57990648430613_2_alg».proof.Proof.LibHostReads
import Idealize.ShloMosaic.Lib.StableHlo.Run
import Idealize.ShloMosaic.Lib.StableHlo.Predicate
import Idealize.ShloMosaic.Lib.ValueIdx

noncomputable section

namespace Cert.KernelIdeal.HostArrays

open Cert.KernelIdeal Cert.KernelIdeal.Gen Idealize.ShloMosaic Idealize.ShloMosaic.TcCoe Idealize.SL.Sem Idealize.ShloMosaic.ValueIdx
open Cert.RouteReadout

variable (m : (ℓ : Loc nD τ sig) → Buf (Elt Ideal) ℓ)

/-- The route index words, the route table, … as the launch finds them in memory. -/
abbrev routeIdx (c : Dev nD) : IVec S262144 32 := m ((c : Thread nD τ).loc main_arg0)
abbrev timeIdx (c : Dev nD) : IVec S262144 32 := m ((c : Thread nD τ).loc main_arg1)
abbrev routeTable (c : Dev nD) : FVec Ideal S100000x256 .f32 := m ((c : Thread nD τ).loc main_arg2)
abbrev timeTable (c : Dev nD) : FVec Ideal S2016x256 .f32 := m ((c : Thread nD τ).loc main_arg3)

/-! ## Words: an index word in range -/

/-- A signed "at least" that holds makes the signed "less than" fail. -/
theorem slt_eq_zero_of_sge {x y : BitVec 32} (h : IntOp.cmpi .sge x y = 1#1) : IntOp.cmpi .slt x y = 0#1 := by
  have h' : BitVec.ofBool (y.sle x) = 1#1 := h
  rw [StableHlo.Predicate.ofBool_eq_one_iff] at h'
  show BitVec.ofBool (x.slt y) = 0#1
  have hf : x.slt y = false := by
    simp only [BitVec.sle, BitVec.slt, decide_eq_true_eq, decide_eq_false_iff_not] at h' ⊢
    omega
  rw [hf]; rfl

/-- A word signed-below N is signed-at-most M when N is the successor of M as signed integers. -/
theorem sle_of_slt_succ {x M N : BitVec 32} (hMN : M.toInt + 1 = N.toInt) (h : IntOp.cmpi .slt x N = 1#1) :
    IntOp.cmpi .sle x M = 1#1 := by
  have h' : BitVec.ofBool (x.slt N) = 1#1 := h
  rw [StableHlo.Predicate.ofBool_eq_one_iff] at h'
  show BitVec.ofBool (x.sle M) = 1#1
  rw [StableHlo.Predicate.ofBool_eq_one_iff]
  simp only [BitVec.sle, BitVec.slt, decide_eq_true_eq] at h' ⊢
  omega

/-- Wrapping leaves a word in range as it is: it is not negative. -/
theorem wrapWord_of_inRange {N x : BitVec 32} (h : InRange N x) : wrapWord N x = x := by
  unfold wrapWord
  rw [slt_eq_zero_of_sge h.1, select_zero]

/-! ## The take, as the host operations compute it -/

/-- The index words wrapped: a negative word has the row count added. -/
def wrapIdx (N : BitVec 32) (idx : IVec S262144 32) : IVec S262144 32 :=
  select (cmpi .slt idx (broadcastInDim S262144 ![] bcast_S_S262144 (constantI S_ 32 0#32)))
    (addi idx (broadcastInDim S262144 ![] bcast_S_S262144 (constantI S_ 32 N))) idx

/-- The wrapped words laid out as a column: the gather's start indices. -/
def idxCol (N : BitVec 32) (idx : IVec S262144 32) : IVec S262144x1 32 :=
  broadcastInDim S262144x1 ![0] bcast_S262144_S262144x1_0 (wrapIdx N idx)

/-- Entry (p, u) of the column is index word p, wrapped. -/
theorem idxCol_apply (N : BitVec 32) (idx : IVec S262144 32) (p : Fin 262144) (u : Fin 1) :
    idxCol N idx (ix2 p u) = wrapWord N (idx (ix1 p)) :=
  HostReads.broadcastInDim_vec_col_apply bcast_S262144_S262144x1_0 (wrapIdx N idx) p u

/-- The mask of the take: bit e says that wrapped word e is at least 0 and at most M. -/
def inBounds (N M : BitVec 32) (idx : IVec S262144 32) : IVec S262144 1 :=
  Host.reduce IntOp.andi
    (andi (cmpi .sge (idxCol N idx) (broadcastInDim S262144x1 ![] bcast_S_S262144x1 (constantI S_ 32 0#32)))
      (cmpi .sle (idxCol N idx)
        (broadcastInDim S262144x1 ![0, 1] bcast_S1x1_S262144x1_0_1 (broadcastInDim S1x1 ![1] bcast_S1_S1x1_1 (constantI S1 32 M)))))
    (constantI S_ 1 1#1) reducesTo_S262144x1_S262144_d1 h_S_

/-- The take: the gathered rows where the mask holds, the fill elsewhere. -/
def takeRows {Nn : ℕ} (g : GatherDims ⟨2, ![Nn, 256]⟩ S262144x1 S262144x256) (N M : BitVec 32)
    (tbl : FVec Ideal ⟨2, ![Nn, 256]⟩ .f32) (idx : IVec S262144 32) : FVec Ideal S262144x256 .f32 :=
  select (broadcastInDim S262144x256 ![0] bcast_S262144_S262144x256_0 (inBounds N M idx))
    (Host.gather g tbl (idxCol N idx))
    (broadcastInDim S262144x256 ![] bcast_S_S262144x256 (constant (F := Ideal) S_ .f32 0x7FC00000#32))

/-- With every index word in range the mask is all ones. -/
theorem inBounds_of_inRange {N M : BitVec 32} (hMN : M.toInt + 1 = N.toInt) (idx : IVec S262144 32)
    (h : ∀ e : Fin 262144, InRange N (idx (ix1 e))) (e : Fin 262144) : inBounds N M idx (ix1 e) = 1#1 := by
  unfold inBounds
  apply HostReads.reduce_andi_of_forall_one
  · rfl
  · intro i
    obtain ⟨p, u, rfl⟩ : ∃ p u, i = ix2 p u := ⟨i 0, i 1, eq_ix2 i⟩
    show IntOp.andi (IntOp.cmpi .sge (idxCol N idx (ix2 p u)) 0#32) (IntOp.cmpi .sle (idxCol N idx (ix2 p u)) M) = 1#1
    rw [idxCol_apply, wrapWord_of_inRange (h p), (h p).1, sle_of_slt_succ hMN (h p).2]
    rfl

/-- With every index word in range the take is the embedded batch. -/
theorem takeRows_eq_embed {Nn : ℕ} (hN : 0 < Nn) (g : GatherDims ⟨2, ![Nn, 256]⟩ S262144x1 S262144x256)
    (hoff : g.offsetDims = [1]) (hcoll : g.collapsedSliceDims = [0]) (hob : g.operandBatchingDims = [])
    (hsim : g.startIndexMap = [0]) (hivd : g.indexVectorDim = 1) (M : BitVec 32)
    (hMN : M.toInt + 1 = (BitVec.ofNat 32 Nn).toInt)
    (tbl : FVec Ideal ⟨2, ![Nn, 256]⟩ .f32) (idx : IVec S262144 32)
    (h : ∀ e : Fin 262144, InRange (BitVec.ofNat 32 Nn) (idx (ix1 e))) :
    takeRows g (BitVec.ofNat 32 Nn) M tbl idx = embed (N := Nn) (B := 262144) hN tbl idx := by
  funext i
  obtain ⟨e, j, rfl⟩ : ∃ e j, i = ix2 e j := ⟨i 0, i 1, eq_ix2 i⟩
  unfold takeRows
  rw [select_apply, HostReads.broadcastInDim_vec_rows_apply, inBounds_of_inRange hMN idx h e, select_one,
    GatherRows.gather_rows g hoff hcoll hob hsim hivd tbl _ e j hN]
  have hr : (⟨min (idxCol (BitVec.ofNat 32 Nn) idx (ix2 e 0)).toInt.toNat (Nn - 1), by omega⟩ : Fin Nn)
      = rowOf Nn hN (wrapWord (BitVec.ofNat 32 Nn) (idx (ix1 e))) := by
    apply Fin.ext
    show min _ _ = min _ _
    rw [idxCol_apply]
  rw [hr]
  rfl

/-! ## The windows' arrays -/

/-- A narrowing change of float format is the identity on arrays of extended reals. -/
theorem truncf_eq {s : Shape} {φ ψ : FTy} (a : FVec Ideal s φ) (h : ψ.bits < φ.bits) :
    (truncf ψ a h : s.Idx → EReal) = a := rfl

/-- Window 0's array: with every route index word in range, the route table embedded at them. -/
theorem route_batch (c : Dev nD) (h : ∀ e : Fin 262144, InRange 100000#32 (routeIdx m c (ix1 e))) :
    (V m c main_v1 : S262144x256.Idx → EReal) = embed (N := 100000) (B := 262144) (by decide) (routeTable m c) (routeIdx m c) := by
  -- the array is the take of the route table at the route index words (N = 100000, N − 1 = 99999), its format changed
  have e : (V m c main_v1 : S262144x256.Idx → EReal)
      = truncf .bf16 (takeRows gather_S100000x256_S262144x1_S262144x256_1_0_n_n_0_1_1256 100000#32 99999#32
          (routeTable m c) (routeIdx m c)) bitsLt_bf16_f32 := by
    dsimp only [Gen.V]
    simp only [Gen.hostOps0, Gen.hostOps0_1, Gen.hostOps0_2, Gen.hostOps0_3, List.flatten_cons, List.flatten_nil, List.append_nil,
      List.cons_append, List.nil_append]
    after_results_simp
    simp only [cast_eq]
    rfl
  rw [e]
  refine (truncf_eq (ψ := .bf16) _ bitsLt_bf16_f32).trans ?_
  exact takeRows_eq_embed (Nn := 100000) (by decide) _ rfl rfl rfl rfl rfl 99999#32 (by decide) _ _ h

/-- Window 1's array: with every time index word in range, the time table embedded at them. -/
theorem time_batch (c : Dev nD) (h : ∀ e : Fin 262144, InRange 2016#32 (timeIdx m c (ix1 e))) :
    (V m c main_v3 : S262144x256.Idx → EReal) = embed (N := 2016) (B := 262144) (by decide) (timeTable m c) (timeIdx m c) := by
  -- the array is the take of the time table at the time index words (N = 2016, N − 1 = 2015), its format changed
  have e : (V m c main_v3 : S262144x256.Idx → EReal)
      = truncf .bf16 (takeRows gather_S2016x256_S262144x1_S262144x256_1_0_n_n_0_1_1256 2016#32 2015#32
          (timeTable m c) (timeIdx m c)) bitsLt_bf16_f32 := by
    dsimp only [Gen.V]
    simp only [Gen.hostOps0, Gen.hostOps0_1, Gen.hostOps0_2, Gen.hostOps0_3, List.flatten_cons, List.flatten_nil, List.append_nil,
      List.cons_append, List.nil_append]
    after_results_simp
    simp only [cast_eq]
    rfl
  rw [e]
  refine (truncf_eq (ψ := .bf16) _ bitsLt_bf16_f32).trans ?_
  exact takeRows_eq_embed (Nn := 2016) (by decide) _ rfl rfl rfl rfl rfl 2015#32 (by decide) _ _ h

/-- Windows 2, 3 and 4's arrays are the three weight arguments: each is its argument with the float format changed,
    which on extended reals changes nothing. -/
theorem w_array (c : Dev nD) : (V m c main_v4 : S256x100.Idx → EReal) = m ((c : Thread nD τ).loc main_arg4) := by
  dsimp only [Gen.V]
  simp only [Gen.hostOps0, Gen.hostOps0_1, Gen.hostOps0_2, Gen.hostOps0_3, List.flatten_cons, List.flatten_nil, List.append_nil,
    List.cons_append, List.nil_append]
  after_results_simp
  rfl
theorem a_array (c : Dev nD) : (V m c main_v5 : S256x5.Idx → EReal) = m ((c : Thread nD τ).loc main_arg5) := by
  dsimp only [Gen.V]
  simp only [Gen.hostOps0, Gen.hostOps0_1, Gen.hostOps0_2, Gen.hostOps0_3, List.flatten_cons, List.flatten_nil, List.append_nil,
    List.cons_append, List.nil_append]
  after_results_simp
  rfl
theorem b_array (c : Dev nD) : (V m c main_v6 : S256x5.Idx → EReal) = m ((c : Thread nD τ).loc main_arg6) := by
  dsimp only [Gen.V]
  simp only [Gen.hostOps0, Gen.hostOps0_1, Gen.hostOps0_2, Gen.hostOps0_3, List.flatten_cons, List.flatten_nil, List.append_nil,
    List.cons_append, List.nil_append]
  after_results_simp
  rfl

end Cert.KernelIdeal.HostArrays

end
-- ==== Proof.IndexRange.lean ====
/-
  The precondition puts every route index word in range of the route table and every time index word in range of the
  time table.

  The precondition is a chain of and-s of full reductions by and, each from the bit 1, and it is claimed to be the bit 1.
  An and of two bits is 1 only when both are, so each reduction in the chain is 1; a full reduction by and that is 1 met
  a 1 at every element. The last two reductions are over the bits (x ≥ 0) and (x < N) of the route words with N = 100000
  and of the time words with N = 2016, the 0 and the N being scalar constants broadcast over the batch, which read the
  constant at every index. So at every index both comparisons are 1, which is the word being in range.
-/
import proofs.«425666_j57990648430613_2_alg».proof.Proof.Gen.Pre_finite_inputs
import proofs.«425666_j57990648430613_2_alg».proof.Proof.Embedding
import proofs.«425666_j57990648430613_2_alg».proof.Proof.LibHostReads
import Idealize.ShloMosaic.Lib.ReduceAll
import Idealize.ShloMosaic.Lib.StableHlo.Predicate
import Idealize.ShloMosaic.Lib.ValueIdx

noncomputable section

namespace Cert.Pre_finite_inputs.IndexRange

open Cert.Pre_finite_inputs Idealize.ShloMosaic Idealize.ShloMosaic.ValueIdx
open Cert.RouteReadout

variable {F : FTy → Type} [FloatOps F] [Cert.Pre_finite_inputs.Facts]

/-- A scalar constant broadcast over the batch reads the constant at every index. -/
theorem bcast_const (c : BitVec 32) (e : Fin 262144) :
    broadcastInDim S262144 ![] Facts.bcast_S_S262144 (constantI S_ 32 c) (ix1 e) = c :=
  StableHlo.Predicate.bcast_scalar Facts.bcast_S_S262144 Facts.h_S_ (constantI S_ 32 c) (ix1 e)

/-- When the full reduction by and of the bits (x ≥ 0) and (x < N) over a batch of words x is 1, every word of the batch
    is in range of N: the reduction met a 1 at every element, an and of two bits is 1 only when both are, and the
    broadcast bounds read 0 and N at the element. -/
theorem inRange_of_all (N : BitVec 32) (x : IVec S262144 32)
    (hall : Host.reduce IntOp.andi
        (andi (cmpi .sge x (broadcastInDim S262144 ![] Facts.bcast_S_S262144 (constantI S_ 32 0#32)))
          (cmpi .slt x (broadcastInDim S262144 ![] Facts.bcast_S_S262144 (constantI S_ 32 N))))
        (constantI S_ 1 1#1) Facts.reducesTo_S262144_S_d0 Facts.h_S_ ix0 = 1#1)
    (e : Fin 262144) : InRange N (x (ix1 e)) := by
  -- the result of a full reduction has one index
  haveI : Subsingleton S_.Idx := ⟨fun a b => funext fun d => d.elim0⟩
  have hel := Host.reduce_andi_all _ _ _ _ _ hall (ix1 e)
  obtain ⟨hge, hlt⟩ := IntOp.andi_eq_one.1 hel
  have hge' : IntOp.cmpi .sge (x (ix1 e))
      (broadcastInDim S262144 ![] Facts.bcast_S_S262144 (constantI S_ 32 0#32) (ix1 e)) = 1#1 := hge
  have hlt' : IntOp.cmpi .slt (x (ix1 e))
      (broadcastInDim S262144 ![] Facts.bcast_S_S262144 (constantI S_ 32 N) (ix1 e)) = 1#1 := hlt
  rw [bcast_const] at hge' hlt'
  exact ⟨hge', hlt'⟩

/-- Under the precondition every route index word is at least 0 and below 100000. -/
theorem route_in_range (a0 a1 : IVec S262144 32) (a2 : FVec F S100000x256 .f32) (a3 : FVec F S2016x256 .f32)
    (a4 : FVec F S256x100 .f32) (a5 a6 : FVec F S256x5 .f32) (a7 : FVec F S5x5 .f32) (a8 : FVec F S125x1 .f32) (a9 : FVec F S1 .f32)
    (h : fn (F := F) a0 a1 a2 a3 a4 a5 a6 a7 a8 a9 = fun _ => 1#1) (e : Fin 262144) :
    InRange 100000#32 (a0 (ix1 e)) := by
  have h0 := congrFun h ValueIdx.ix0
  dsimp only [fn, fn_part1, fn_part2, fn_part3] at h0
  -- the chain is (… and all(route words in range)) and all(time words in range)
  obtain ⟨hrest, _⟩ := IntOp.andi_eq_one.1 h0
  obtain ⟨_, hroute⟩ := IntOp.andi_eq_one.1 hrest
  exact inRange_of_all 100000#32 a0 hroute e

/-- Under the precondition every time index word is at least 0 and below 2016. -/
theorem time_in_range (a0 a1 : IVec S262144 32) (a2 : FVec F S100000x256 .f32) (a3 : FVec F S2016x256 .f32)
    (a4 : FVec F S256x100 .f32) (a5 a6 : FVec F S256x5 .f32) (a7 : FVec F S5x5 .f32) (a8 : FVec F S125x1 .f32) (a9 : FVec F S1 .f32)
    (h : fn (F := F) a0 a1 a2 a3 a4 a5 a6 a7 a8 a9 = fun _ => 1#1) (e : Fin 262144) :
    InRange 2016#32 (a1 (ix1 e)) := by
  have h0 := congrFun h ValueIdx.ix0
  dsimp only [fn, fn_part1, fn_part2, fn_part3] at h0
  -- the last conjunct of the chain is all(time words in range)
  obtain ⟨_, htime⟩ := IntOp.andi_eq_one.1 h0
  exact inRange_of_all 2016#32 a1 htime e

end Cert.Pre_finite_inputs.IndexRange

end
-- ==== Proof.RefRows.lean ====
/-
  The reference's result, row by row, is the read-out of the two gathered batches.

  Each operation of the reference after the two gathers is read at explicit coordinates. The hidden units are the
  rectified product of the rows' elementwise product with the first weight matrix; the two projections are products
  with the 256 × 5 matrices; a gate is 1 / (1 + e^(−x)) of the product of two projection entries plus a bias entry,
  which is the logistic function by its definition; the 5 × 5 grid is flattened row-major, so position g reads
  (g / 5, g % 5); the 125 features are the 100 hidden units followed by the 25 flattened gates; the result is their
  weighted sum plus the last bias.
-/
import proofs.«425666_j57990648430613_2_alg».proof.Proof.Gen.ReferenceIdeal.Read
import proofs.«425666_j57990648430613_2_alg».proof.Proof.Readout
import proofs.«425666_j57990648430613_2_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefRows

open Cert.ReferenceIdeal Cert.ReferenceIdeal.Gen Cert.ReferenceIdeal.Read Idealize.ShloMosaic Idealize.ShloMosaic.ValueIdx
open Cert.RouteReadout

section Stages

variable (x0 x1 : IVec S262144 32) (x2 : FVec Ideal S100000x256 .f32) (x3 : FVec Ideal S2016x256 .f32)
    (x4 : FVec Ideal S256x100 .f32) (x5 x6 : FVec Ideal S256x5 .f32) (x7 : FVec Ideal S5x5 .f32) (x8 : FVec Ideal S125x1 .f32)
    (x9 : FVec Ideal S1 .f32)

/-- Hidden unit (n, k): the product of row n of the elementwise product of the two gathered batches with column k of
    the first weight matrix, rectified against the constant zero. -/
theorem hidden_at (n : Fin 262144) (k : Fin 100) :
    val_main_v16 (F := Ideal) x0 x1 x2 x3 x4 (ix2 n k)
      = RouteReadout.hidden (B := 262144) (val_main_v6 (F := Ideal) x0 x2) (val_main_v13 (F := Ideal) x1 x3) x4 n k := by
  rw [val_main_v16_apply, val_main_v15_apply, val_main_call0_v0_apply, val_main_call0_cst_apply]
  show max _ (Ideal.ofBits .f32 0x00000000#32) = _
  rw [Ideal.ofBits_zero_f32]
  unfold RouteReadout.hidden
  refine congrArg (fun s : EReal => max s 0) ?_
  refine Finset.sum_congr rfl fun d _ => ?_
  have el : lidx_main_v15 (ix2 n k) d = ix2 n d := by
    funext a; match a with | ⟨0, _⟩ => rfl | ⟨1, _⟩ => rfl
  have er : ridx_main_v15 (ix2 n k) d = ix2 d k := by
    funext a; match a with | ⟨0, _⟩ => rfl | ⟨1, _⟩ => rfl
  rw [el, er]
  rfl

/-- Entry (n, i) of the route batch's projection. -/
theorem projR_at (n : Fin 262144) (i : Fin 5) :
    val_main_v17 (F := Ideal) x0 x2 x5 (ix2 n i) = proj (B := 262144) (val_main_v6 (F := Ideal) x0 x2) x5 n i := by
  rw [val_main_v17_apply]
  unfold proj
  refine Finset.sum_congr rfl fun d _ => ?_
  have el : lidx_main_v17 (ix2 n i) d = ix2 n d := by
    funext a; match a with | ⟨0, _⟩ => rfl | ⟨1, _⟩ => rfl
  have er : ridx_main_v17 (ix2 n i) d = ix2 d i := by
    funext a; match a with | ⟨0, _⟩ => rfl | ⟨1, _⟩ => rfl
  rw [el, er]

/-- Entry (n, j) of the time batch's projection. -/
theorem projT_at (n : Fin 262144) (j : Fin 5) :
    val_main_v18 (F := Ideal) x1 x3 x6 (ix2 n j) = proj (B := 262144) (val_main_v13 (F := Ideal) x1 x3) x6 n j := by
  rw [val_main_v18_apply]
  unfold proj
  refine Finset.sum_congr rfl fun d _ => ?_
  have el : lidx_main_v18 (ix2 n j) d = ix2 n d := by
    funext a; match a with | ⟨0, _⟩ => rfl | ⟨1, _⟩ => rfl
  have er : ridx_main_v18 (ix2 n j) d = ix2 d j := by
    funext a; match a with | ⟨0, _⟩ => rfl | ⟨1, _⟩ => rfl
  rw [el, er]

/-- Gate (n, i, j): the route projection's entry i is repeated along the last axis, the time projection's entry j along
    the middle one, the bias along the rows; one over one plus the exponential of the negated sum is the logistic
    function of that sum. -/
theorem gate_at (n : Fin 262144) (i j : Fin 5) :
    val_main_v32 (F := Ideal) x0 x1 x2 x3 x5 x6 x7 (ix3 n i j)
      = gate (B := 262144) (val_main_v6 (F := Ideal) x0 x2) (val_main_v13 (F := Ideal) x1 x3) x5 x6 x7 n i j := by
  rw [val_main_v32_apply, val_main_v31_apply, val_main_cst_3_apply, val_main_v30_apply, val_main_v29_apply,
    val_main_cst_apply, val_main_v28_apply, val_main_v27_apply, val_main_v26_apply, val_main_v23_apply,
    val_main_v21_apply, val_main_v19_apply, val_main_v22_apply, val_main_v20_apply, val_main_v25_apply,
    val_main_v24_apply]
  have eR : idx_main_v19 (idx_main_v21 (ix3 n i j)) = ix2 n i := by
    funext a; match a with | ⟨0, _⟩ => rfl | ⟨1, _⟩ => rfl
  have eT : idx_main_v20 (idx_main_v22 (ix3 n i j)) = ix2 n j := by
    funext a; match a with | ⟨0, _⟩ => rfl | ⟨1, _⟩ => rfl
  have eB : idx_main_v24 (idx_main_v25 (ix3 n i j)) = ix2 i j := by
    funext a; match a with | ⟨0, _⟩ => rfl | ⟨1, _⟩ => rfl
  rw [eR, eT, eB, projR_at, projT_at]
  show Ideal.div (Ideal.ofBits .f32 0x3F800000#32) (Ideal.ofBits .f32 0x3F800000#32 + Ideal.exp (-(_ * _ + _))) = _
  rw [Ideal.ofBits_one_f32]
  rfl

/-- Position g of row n of the flattened grid is gate (g / 5, g % 5): the flattening is row-major. -/
theorem flat_at (n : Fin 262144) (g : Fin 25) :
    val_main_v33 (F := Ideal) x0 x1 x2 x3 x5 x6 x7 (ix2 n g)
      = gate (B := 262144) (val_main_v6 (F := Ideal) x0 x2) (val_main_v13 (F := Ideal) x1 x3) x5 x6 x7 n
          ⟨g.val / 5, by omega⟩ ⟨g.val % 5, by omega⟩ := by
  rw [val_main_v33_apply]
  have e : idx_main_v33 (ix2 n g) = ix3 n (⟨g.val / 5, by omega⟩ : Fin 5) (⟨g.val % 5, by omega⟩ : Fin 5) := by
    funext a; apply Fin.ext
    have hn := n.isLt
    have hg := g.isLt
    match a with
    | ⟨0, _⟩ => show (n.val * 25 + g.val) / 25 = n.val; omega
    | ⟨1, _⟩ => show (n.val * 25 + g.val) / 5 % 5 = g.val / 5; omega
    | ⟨2, _⟩ => show (n.val * 25 + g.val) % 5 = g.val % 5; omega
  rw [e]
  exact gate_at x0 x1 x2 x3 x5 x6 x7 n _ _

/-- Feature (n, f) of the joined array: below 100 it falls in the hidden units, from 100 on in the flattened gates at
    position f − 100. -/
theorem feature_at (n : Fin 262144) (f : Fin 125) :
    val_main_v34 (F := Ideal) x0 x1 x2 x3 x4 x5 x6 x7 (ix2 n f)
      = feature (B := 262144) (val_main_v6 (F := Ideal) x0 x2) (val_main_v13 (F := Ideal) x1 x3) x4 x5 x6 x7 n f := by
  unfold val_main_v34 feature
  by_cases h : f.val < 100
  · rw [dif_pos h]
    refine (concatenate_pair_apply_left (t := S262144x125) (s₁ := S262144x100) (s₂ := S262144x25) 1 _ _ _
      (ix2 n f) rfl (ix2 n (⟨f.val, h⟩ : Fin 100)) (fun b => ?_)).trans (hidden_at x0 x1 x2 x3 x4 n _)
    match b with
    | ⟨0, _⟩ => rfl
    | ⟨1, _⟩ => rfl
  · rw [dif_neg h]
    have hf := f.isLt
    refine (concatenate_pair_apply_right (t := S262144x125) (s₁ := S262144x100) (s₂ := S262144x25) 1 _ _ _
      (ix2 n f) rfl rfl (ix2 n (⟨f.val - 100, by omega⟩ : Fin 25)) (fun b hb => ?_) ?_).trans
      (flat_at x0 x1 x2 x3 x5 x6 x7 n _)
    · match b with
      | ⟨0, _⟩ => rfl
      | ⟨1, _⟩ => exact absurd rfl hb
    · show f.val - 100 + 100 = f.val
      omega

end Stages

/-- The reference's result at row n is the read-out of the gathered route and time batches. -/
theorem reference_is_readout (x0 x1 : IVec S262144 32) (x2 : FVec Ideal S100000x256 .f32) (x3 : FVec Ideal S2016x256 .f32)
    (x4 : FVec Ideal S256x100 .f32) (x5 x6 : FVec Ideal S256x5 .f32) (x7 : FVec Ideal S5x5 .f32) (x8 : FVec Ideal S125x1 .f32)
    (x9 : FVec Ideal S1 .f32) :
    val_main_v39 (F := Ideal) x0 x1 x2 x3 x4 x5 x6 x7 x8 x9
      = fun i => readout (B := 262144) (val_main_v6 (F := Ideal) x0 x2) (val_main_v13 (F := Ideal) x1 x3) x4 x5 x6 x7 x8 x9
          ⟨(i 0).val, (i 0).isLt⟩ := by
  funext i
  obtain ⟨n, rfl⟩ : ∃ n : Fin 262144, i = ix1 n := ⟨i 0, eq_ix1 i⟩
  rw [val_main_v39_apply, val_main_v38_apply]
  have e39 : idx_main_v39 (ix1 n) = ix2 n (0 : Fin 1) := by
    funext a; apply Fin.ext
    match a with
    | ⟨0, _⟩ => exact Nat.div_one _
    | ⟨1, _⟩ => rfl
  rw [e39, val_main_v35_apply, val_main_v37_apply, val_main_v36_apply]
  have e9 : idx_main_v36 (idx_main_v37 (ix2 n (0 : Fin 1))) = ix1 (0 : Fin 1) := by
    funext a; match a with | ⟨0, _⟩ => rfl
  rw [e9]
  refine Eq.trans ?_ (readout_features (B := 262144) (val_main_v6 (F := Ideal) x0 x2) (val_main_v13 (F := Ideal) x1 x3)
    x4 x5 x6 x7 x8 x9 n)
  refine congrArg (fun s : EReal => s + x9 (ix1 (0 : Fin 1))) ?_
  refine Finset.sum_congr rfl fun f _ => ?_
  have el : lidx_main_v35 (ix2 n (0 : Fin 1)) f = ix2 n f := by
    funext a; match a with | ⟨0, _⟩ => rfl | ⟨1, _⟩ => rfl
  have er : ridx_main_v35 (ix2 n (0 : Fin 1)) f = ix2 f (0 : Fin 1) := by
    funext a; match a with | ⟨0, _⟩ => rfl | ⟨1, _⟩ => rfl
  rw [el, er, feature_at]

end Cert.ReferenceIdeal.RefRows

end
-- ==== Proof.RefEmbed.lean ====
/-
  The reference's two gathers are the embedded batches.

  Each gather takes whole rows of a table at a column of start indices. The column is the batch of index words, each
  wrapped the way NumPy reads an index (a negative word has the table's row count added), laid out as an [B, 1] column.
  A row gather read at (e, j) is the table at (r, j), where r is the start index of row e read as a signed integer and
  clamped into 0 … N − 1; that is the row the wrapped word names. No range hypothesis on the index words is used: the
  clamp is part of the gather.
-/
import proofs.«425666_j57990648430613_2_alg».proof.Proof.Gen.ReferenceIdeal.Read
import proofs.«425666_j57990648430613_2_alg».proof.Proof.Embedding
import proofs.«425666_j57990648430613_2_alg».proof.Proof.LibGatherRows
import proofs.«425666_j57990648430613_2_alg».proof.Proof.LibHostReads
import Idealize.ShloMosaic.Lib.ValueIdx

noncomputable section

namespace Cert.ReferenceIdeal.RefEmbed

open Cert.ReferenceIdeal Cert.ReferenceIdeal.Gen Cert.ReferenceIdeal.Read Idealize.ShloMosaic Idealize.ShloMosaic.ValueIdx
open Cert.RouteReadout

/-- The column of route start indices at (e, 0) is route index word e, wrapped into a table of 100000 rows: the column
    keeps the vector's entries, and the vector is the select of (word + 100000) over the word on (word < 0). -/
theorem route_start (x0 : IVec S262144 32) (e : Fin 262144) :
    val_main_v5 (F := Ideal) x0 (ix2 e 0) = wrapWord 100000#32 (x0 (ix1 e)) := by
  rw [val_main_v5_apply, val_main_v4_apply, val_main_v1_apply, val_main_v3_apply, val_main_v0_apply, val_main_v2_apply,
    val_main_c_apply, val_main_c_0_apply]
  have hi : idx_main_v5 (ix2 e (0 : Fin 1)) = ix1 e := by
    funext d; match d with | ⟨0, _⟩ => rfl
  rw [hi]
  rfl

/-- The column of time start indices at (e, 0) is time index word e, wrapped into a table of 2016 rows. -/
theorem time_start (x1 : IVec S262144 32) (e : Fin 262144) :
    val_main_v12 (F := Ideal) x1 (ix2 e 0) = wrapWord 2016#32 (x1 (ix1 e)) := by
  rw [val_main_v12_apply, val_main_v11_apply, val_main_v8_apply, val_main_v10_apply, val_main_v7_apply, val_main_v9_apply,
    val_main_c_1_apply, val_main_c_2_apply]
  have hi : idx_main_v12 (ix2 e (0 : Fin 1)) = ix1 e := by
    funext d; match d with | ⟨0, _⟩ => rfl
  rw [hi]
  rfl

/-- The reference's gather of route rows is the route table embedded at the route index words. -/
theorem route_rows (x0 : IVec S262144 32) (x2 : FVec Ideal S100000x256 .f32) :
    val_main_v6 (F := Ideal) x0 x2 = embed (N := 100000) (B := 262144) (by decide) x2 x0 := by
  funext i
  obtain ⟨e, j, rfl⟩ : ∃ e j, i = ix2 e j := ⟨i 0, i 1, eq_ix2 i⟩
  unfold val_main_v6
  rw [GatherRows.gather_rows gather_S100000x256_S262144x1_S262144x256_1_0_n_n_0_1_1256 rfl rfl rfl rfl rfl x2
    (val_main_v5 (F := Ideal) x0) e j (by decide)]
  -- both sides are the table at an index; the indices agree coordinate by coordinate
  refine congrArg x2 (funext fun a => ?_)
  match a with
  | ⟨0, _⟩ =>
    -- the row: the clamped start index, and the start index is the wrapped word
    refine Fin.ext ?_
    show min (val_main_v5 (F := Ideal) x0 (ix2 e 0)).toInt.toNat (100000 - 1)
      = min (wrapWord 100000#32 (x0 (ix1 e))).toInt.toNat (100000 - 1)
    rw [route_start]
  | ⟨1, _⟩ => rfl

/-- The reference's gather of time rows is the time table embedded at the time index words. -/
theorem time_rows (x1 : IVec S262144 32) (x3 : FVec Ideal S2016x256 .f32) :
    val_main_v13 (F := Ideal) x1 x3 = embed (N := 2016) (B := 262144) (by decide) x3 x1 := by
  funext i
  obtain ⟨e, j, rfl⟩ : ∃ e j, i = ix2 e j := ⟨i 0, i 1, eq_ix2 i⟩
  unfold val_main_v13
  rw [GatherRows.gather_rows gather_S2016x256_S262144x1_S262144x256_1_0_n_n_0_1_1256 rfl rfl rfl rfl rfl x3
    (val_main_v12 (F := Ideal) x1) e j (by decide)]
  refine congrArg x3 (funext fun a => ?_)
  match a with
  | ⟨0, _⟩ =>
    refine Fin.ext ?_
    show min (val_main_v12 (F := Ideal) x1 (ix2 e 0)).toInt.toNat (2016 - 1)
      = min (wrapWord 2016#32 (x1 (ix1 e))).toInt.toNat (2016 - 1)
    rw [time_start]
  | ⟨1, _⟩ => rfl

end Cert.ReferenceIdeal.RefEmbed

end
-- ==== Proof.lean ====
/-
  The kernel gathers a row of the route table and a row of the time table for every batch entry and, per entry, forms
  the read-out  Σ_k relu(Σ_d (r_d t_d) W(d,k)) · fcw(k) + Σ_i Σ_j σ((r·A)_i (t·Bm)_j + bias(i,j)) · fcw(100 + 5 i + j) + fcb
  in blocks of 4096 entries; the reference gathers the same rows and takes one product of the 125 features with fcw.

  The two programs differ in the gather: the kernel's take fills a row whose index word is out of range with a NaN pattern,
  the reference's indexing clamps it. The precondition puts every index word in range of its table; there the fill is never
  selected and both batches are the table's rows at the index words. After that the two results are one function of the
  batches and the weights: the kernel adds the bias to the hidden part and then the five rows of gates one after the other,
  the reference sums the 125 features at once, and addition of extended reals is commutative and associative; the kernel's
  changes of float format are the identity on extended reals; its logistic function is the reference's 1 / (1 + e^(−x)) by
  definition. No finiteness of the inputs is used.

  The three frames are the generated ones (the reference's is its generated run with the result dropped); the ideal pass
  rewrote nothing, so the idealization claim is trivial.
-/
import proofs.«425666_j57990648430613_2_alg».proof.Defs
import proofs.«425666_j57990648430613_2_alg».proof.Proof.Gen.Kernel
import proofs.«425666_j57990648430613_2_alg».proof.Proof.Gen.Kernel.Skeleton
import proofs.«425666_j57990648430613_2_alg».proof.Proof.Gen.Kernel.Launch
import proofs.«425666_j57990648430613_2_alg».proof.Proof.Gen.Kernel.Points
import proofs.«425666_j57990648430613_2_alg».proof.Proof.Gen.Kernel.Frame
import proofs.«425666_j57990648430613_2_alg».proof.Proof.Gen.KernelIdeal
import proofs.«425666_j57990648430613_2_alg».proof.Proof.Gen.KernelIdeal.Skeleton
import proofs.«425666_j57990648430613_2_alg».proof.Proof.Gen.KernelIdeal.Launch
import proofs.«425666_j57990648430613_2_alg».proof.Proof.Gen.KernelIdeal.Points
import proofs.«425666_j57990648430613_2_alg».proof.Proof.Gen.KernelIdeal.Frame
import proofs.«425666_j57990648430613_2_alg».proof.Proof.Gen.ReferenceIdeal
import proofs.«425666_j57990648430613_2_alg».proof.Proof.Gen.Pre_finite_inputs
import proofs.«425666_j57990648430613_2_alg».proof.Proof.Gen.KernelIdeal.Value
import proofs.«425666_j57990648430613_2_alg».proof.Proof.Gen.ReferenceIdeal.Run
import proofs.«425666_j57990648430613_2_alg».proof.Proof.Gen.ReferenceIdeal.Read
import proofs.«425666_j57990648430613_2_alg».proof.Proof.KernelArray
import proofs.«425666_j57990648430613_2_alg».proof.Proof.HostArrays
import proofs.«425666_j57990648430613_2_alg».proof.Proof.IndexRange
import proofs.«425666_j57990648430613_2_alg».proof.Proof.RefRows
import proofs.«425666_j57990648430613_2_alg».proof.Proof.RefEmbed
import Idealize.ShloMosaic.Adequacy
import Idealize.ShloMosaic.Init

noncomputable section

namespace Cert.Proof

open Idealize.ShloMosaic Idealize.ShloMosaic.TcCoe Idealize.SL.Sem Idealize.ShloMosaic.ValueIdx
open Cert.RouteReadout

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result array in terms of whatever the eight arrays its windows find are. -/
theorem result_of_arrays (m : (ℓ : Loc Cert.KernelIdeal.nD Cert.KernelIdeal.τ Cert.KernelIdeal.sig) → Buf (Elt Ideal) ℓ)
    (c : Dev Cert.KernelIdeal.nD) (R T : Mat 262144 256) (W : Mat 256 100) (A Bm : Mat 256 5) (bias : Mat 5 5) (fcw : Mat 125 1)
    (fcb : (⟨1, ![1]⟩ : Shape).Idx → EReal)
    (hR : Cert.KernelIdeal.KernelArray.rArr m c = R) (hT : Cert.KernelIdeal.KernelArray.tArr m c = T)
    (hW : Cert.KernelIdeal.KernelArray.wArr m c = W) (hA : Cert.KernelIdeal.KernelArray.aArr m c = A)
    (hB : Cert.KernelIdeal.KernelArray.bArr m c = Bm) (hbias : Cert.KernelIdeal.KernelArray.biasArr m c = bias)
    (hfcw : Cert.KernelIdeal.KernelArray.fcwArr m c = fcw) (hfcb : Cert.KernelIdeal.KernelArray.fcbArr m c = fcb) :
    Cert.KernelIdeal.KernelArray.result m c
      = fun i => readout (B := 262144) R T W A Bm bias fcw fcb ⟨(i 0).val, (i 0).isLt⟩ := by
  subst hR hT hW hA hB hbias hfcw hfcb
  rfl

/-- Both programs end with the read-out of every row of the two embedded batches. -/
theorem algebraic : Cert.algebraic_KernelIdeal_ReferenceIdeal := by
  intro m ρ m' ρ' hpre hagree
  have hroute : ∀ (c : Dev Cert.KernelIdeal.nD) (e : Fin 262144),
      InRange 100000#32 (Cert.KernelIdeal.HostArrays.routeIdx m c (ix1 e)) := fun c e =>
    Cert.Pre_finite_inputs.IndexRange.route_in_range (F := Ideal) _ _ _ _ _ _ _ _ _ _ (hpre c) e
  have htime : ∀ (c : Dev Cert.KernelIdeal.nD) (e : Fin 262144),
      InRange 2016#32 (Cert.KernelIdeal.HostArrays.timeIdx m c (ix1 e)) := fun c e =>
    Cert.Pre_finite_inputs.IndexRange.time_in_range (F := Ideal) _ _ _ _ _ _ _ _ _ _ (hpre c) e
  refine ⟨fun c => Cert.KernelIdeal.KernelArray.result m c, Cert.KernelIdeal.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9⟩ := hagree c
  rw [g0, g1, g2, g3, g4, g5, g6, g7, g8, g9]
  refine (Cert.ReferenceIdeal.Read.val_main_v39_eq (F := Ideal) _ _ _ _ _ _ _ _ _ _).trans ?_
  rw [Cert.ReferenceIdeal.RefRows.reference_is_readout, Cert.ReferenceIdeal.RefEmbed.route_rows, Cert.ReferenceIdeal.RefEmbed.time_rows]
  exact (result_of_arrays m c _ _ _ _ _ _ _ _
    (Cert.KernelIdeal.HostArrays.route_batch m c (hroute c)) (Cert.KernelIdeal.HostArrays.time_batch m c (htime c))
    (Cert.KernelIdeal.HostArrays.w_array m c) (Cert.KernelIdeal.HostArrays.a_array m c) (Cert.KernelIdeal.HostArrays.b_array m c)
    (Cert.KernelIdeal.Gen.V_main_arg7 m c) (Cert.KernelIdeal.Gen.V_main_arg8 m c) (Cert.KernelIdeal.Gen.V_main_arg9 m c)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
